-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S128x384 : Shape := ⟨2, ![128, 384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x384 : S_.BroadcastsInDim S128x384 (![] : Fin 0 → Fin S128x384.rank)
  reducesTo_S128x384_S_d0_1 : S128x384.ReducesTo [0, 1] S_

variable [Facts]

def fn_part1 {F : FTy → Type} [FloatOps F] (main_arg6 : FVec F S128 .f32) (main_arg7 : FVec F S128x384 .f32) (main_arg8 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x384 .f32 := Host.absf main_arg7
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x256 .f32) (main_arg6 : FVec F S128 .f32) (main_arg7 : FVec F S128x384 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S128x384 : Shape := ⟨2, ![128, 384]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S2000x128 : Shape := ⟨2, ![2000, 128]⟩
abbrev S2000x1 : Shape := ⟨2, ![2000, 1]⟩
abbrev S1600000x128 : Shape := ⟨2, ![1600000, 128]⟩
abbrev S100000x256 : Shape := ⟨2, ![100000, 256]⟩
abbrev S2000x256 : Shape := ⟨2, ![2000, 256]⟩
abbrev S256x128 : Shape := ⟨2, ![256, 128]⟩
abbrev S100000x384 : Shape := ⟨2, ![100000, 384]⟩
abbrev S2000x384 : Shape := ⟨2, ![2000, 384]⟩
abbrev S384x128 : Shape := ⟨2, ![384, 128]⟩

abbrev nBuf : Space → Nat
  | .hbm => 63
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x384, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x256, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x384, .f32⟩
  | .hbm, ⟨60, _⟩ => ⟨S1x128, .f32⟩
  | .hbm, ⟨61, _⟩ => ⟨S100000x128, .f32⟩
  | .hbm, ⟨62, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x256, .f32⟩
  | .local _ .vmem, ⟨11, _⟩ => ⟨S2000x256, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S128x256, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x384, .f32⟩
  | .local _ .vmem, ⟨25, _⟩ => ⟨S2000x384, .f32⟩
  | .local _ .vmem, ⟨26, _⟩ => ⟨S2000x128, .f32⟩
  | .local _ .vmem, ⟨27, _⟩ => ⟨S2000x128, .f32⟩
  | .local _ .vmem, ⟨28, _⟩ => ⟨S2000x1, .f32⟩
  | .local _ .vmem, ⟨29, _⟩ => ⟨S2000x1, .f32⟩
  | .local _ .vmem, ⟨30, _⟩ => ⟨S2000x1, .f32⟩
  | .local _ .vmem, ⟨31, _⟩ => ⟨S2000x1, .f32⟩
  | .local _ .vmem, ⟨32, _⟩ => ⟨S128x384, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37_0 : Ref sig .tc := ⟨.hbm, 61, rfl⟩
abbrev main_v37_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem6_1 : DmaSem sig := 35
abbrev cc2_sem7_0 : DmaSem sig := 36
abbrev cc2_sem7_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  concatenates_S100000x128_S100000x128_S100000x256_d1 : Shape.Concatenates [S100000x128, S100000x128] S100000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  shapeCasts_S2000x128_S2000x128 : S2000x128.ShapeCasts S2000x128
  concatenates_S100000x128_S100000x128_S100000x128_S100000x384_d1 : Shape.Concatenates [S100000x128, S100000x128, S100000x128] S100000x384 1
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S128x384_S128x384_0_0 : ∀ a, (![0, 0] : Fin 2 → Nat) a + S128x384.size a ≤ S128x384.size a
  h_S128x384 : 0 < S128x384.numel
  transposes_S128x384_p1_0_S384x128 : S128x384.Transposes [1, 0] S384x128
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x256_S256x128_S2000x128_1_0_0_1_n_n_wf : DotDims.WF S2000x256 S256x128 S2000x128 [1] [0] [0] [1] [] []
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x384.size a ≤ S100000x384.size a
  hwx2_0 : ∀ i : grid2.Coords, EltTy.bits .f32 = 32 ∨ (Rect.block (s := S100000x384) S2000x384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x384.size a ≤ S128x384.size a
  hwx2_4 : ∀ i : grid2.Coords, EltTy.bits .f32 = 32 ∨ (Rect.block (s := S128x384) S128x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v24_1) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v35) S2000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v37_1) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S128x384 : Shape := ⟨2, ![128, 384]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1600000x128 : Shape := ⟨2, ![1600000, 128]⟩
abbrev S100000x256 : Shape := ⟨2, ![100000, 256]⟩
abbrev S256x128 : Shape := ⟨2, ![256, 128]⟩
abbrev S100000x384 : Shape := ⟨2, ![100000, 384]⟩
abbrev S384x128 : Shape := ⟨2, ![384, 128]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x384, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x256, .f32⟩
  | .hbm, ⟨47, _⟩ => ⟨S100000x128, .f32⟩
  | .hbm, ⟨48, _⟩ => ⟨S100000x128, .f32⟩
  | .hbm, ⟨49, _⟩ => ⟨S256x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x384, .f32⟩
  | .hbm, ⟨73, _⟩ => ⟨S100000x128, .f32⟩
  | .hbm, ⟨74, _⟩ => ⟨S100000x128, .f32⟩
  | .hbm, ⟨75, _⟩ => ⟨S384x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  concatenates_S100000x128_S100000x128_S100000x128_S100000x384_d1 : Shape.Concatenates [S100000x128, S100000x128, S100000x128] S100000x384 1
  transposes_S128x384_S384x128_1_0 : S128x384.Transposes [1, 0] S384x128
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []
  dot_S100000x384_S384x128_S100000x128_1_0_0_1_n_n_wf : DotDims.WF S100000x384 S384x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.KBody0.lean ====
/-
  Region 0 of the word-level kernel's @main — the dense layer `h0 = feat · W0ᵀ + b0`, `m0 = h0 · norm`, tiled over
  the node axis in 50 blocks of 2000 rows — as ONE pipeline's body half, at a parameter `V` (the buffers' contents
  when the region is entered): each window's block at a grid point, what the body's two stores leave in the two
  output buffers as functions of the four input blocks, the body's triple, the pipeline's proof data, and the
  body obligation at a generic point. The weights, the bias row and the degree column are read, never written;
  the two output blocks are each stored whole, so each ends as the canon of its one store.
-/
import proofs.«123069_j50448685859076_1_alg».proof.Proof.Gen.Kernel.Launch
import proofs.«123069_j50448685859076_1_alg».proof.Proof.Gen.Kernel.Skeleton
import proofs.«123069_j50448685859076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point — fetched there, or fetched earlier
    with the block index unmoved since — for any proof data whose array is `V`'s and whose body leaves the block
    in place. One statement per input window: the row block of `feat`, the whole `W0`, the bias row, the degree
    column's row block. -/
theorem before_feat_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_norm_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole buffer -/

abbrev rRows : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rCol : Rect S2000x1 := Rect.unit (s := S2000x1) ![0, 0] S2000x1.size inb_S2000x1_S2000x1_0_0

/-! ## What the body leaves in each output buffer -/

/-- The `h0` block after the body: its one whole-block store of `feat_blk · W0ᵀ + b0`. -/
def hOut (x0 : Vec F S2000x128 .f32) (x1 : Vec F S128x128 .f32) (x2 : Vec F S1x128 .f32) : Vec F S2000x128 .f32 :=
  View.canon [⟨rRows, k0_pay1 (View.ld x0 rRows) (View.ld x1 rW) (View.ld x2 rB)⟩]

/-- The `m0` block after the body: its one whole-block store of `h0_blk · norm_blk`. -/
def mOut (x0 : Vec F S2000x128 .f32) (x1 : Vec F S128x128 .f32) (x2 : Vec F S1x128 .f32) (x3 : Vec F S2000x1 .f32) : Vec F S2000x128 .f32 :=
  View.canon [⟨rRows, k0_pay2 (View.ld x0 rRows) (View.ld x1 rW) (View.ld x2 rB) (View.ld x3 rCol)⟩]

/-- One whole-block store covers the block. -/
theorem cover_rows (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging memrefs — the four inputs' at read contents, the two outputs' at anything —
    runs to the continuation holding the inputs' as they were and the outputs' at `hOut`, `mOut` of the inputs'. -/
theorem sound_kernel (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x1 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x128 .f32) (x1 : Vec F S128x128 .f32) (x2 : Vec F S1x128 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (hOut x0 x1 x2)
            ∗ owns (c : Thread nD τ) arg6 fullShare (mOut x0 x1 x2 x3)) -∗ K ⟨⟩))
      ⊢ wp frame (wpE (defs₀ (F := F)) Variants.none c none) E (cc0__linear0_kernel i arg1 harg1 arg2 harg2 arg3 harg3 arg4 harg4 arg5 harg5 arg6 harg6) K := by
  simp only [cc0__linear0_kernel_eq_skeleton]; unfold cc0__linear0_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_rows _)
  iexists _; isplitr
  swap; · iexact H5
  ipureintro
  exact View.read_writes_eq_canon _ _ _ (cover_rows _)

/-! ## The pipeline's proof data -/

/-- The proof data of this pipeline on core `c`: the arrays as the region finds them; after the body at point `t`
    each input's buffer at its block and the two outputs' at `hOut`, `mOut` of the input blocks; the invariant
    the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => hOut (blk V c 0 t) (blk V c 1 t) (blk V c 2 t)
    | ⟨5, _⟩ => mOut (blk V c 0 t) (blk V c 1 t) (blk V c 2 t) (blk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = hOut (blk V c 0 t) (blk V c 1 t) (blk V c 2 t) := by dsimp only [dat]
theorem after_5 (c : Dev nD) (t : Fin cfg0.N) : (dat V c).after 5 t = mOut (blk V c 0 t) (blk V c 1 t) (blk V c 2 t) (blk V c 3 t) := by dsimp only [dat]

theorem before_0 (c : Dev nD) (t : Fin cfg0.N) (d) : (dat V c).before 0 t d = blk V c 0 t :=
  before_feat_of V (dat V c) (A_eq V c 0) (after_0 V c) t d
theorem before_1 (c : Dev nD) (t : Fin cfg0.N) (d) : (dat V c).before 1 t d = blk V c 1 t :=
  before_w_of V (dat V c) (A_eq V c 1) (after_1 V c) t d
theorem before_2 (c : Dev nD) (t : Fin cfg0.N) (d) : (dat V c).before 2 t d = blk V c 2 t :=
  before_b_of V (dat V c) (A_eq V c 2) (after_2 V c) t d
theorem before_3 (c : Dev nD) (t : Fin cfg0.N) (d) : (dat V c).before 3 t d = blk V c 3 t :=
  before_norm_of V (dat V c) (A_eq V c 3) (after_3 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W0, bigSep_W0]
  exact sound_body V c t

end Cert.Kernel.Dense0

end
-- ==== Proof.KBody1.lean ====
/-
  Region 1 of the word-level kernel's @main — the first combine layer
  `h = agg · norm + norm2 · (cat · Wᵀ + b)`, `m = h · norm`, tiled over the node axis in 50 blocks of 2000 rows —
  as ONE pipeline's body half, at a parameter `V` (the buffers' contents when the region is entered): each window's
  block at a grid point, what the body's two stores leave in the two output buffers as functions of the six input
  blocks, the body's triple, the pipeline's proof data, and the body obligation at a generic point. The
  concatenated features, the aggregated messages, the two degree columns, the weights and the bias row are read,
  never written; the two output blocks are each stored whole, so each ends as the canon of its one store.
-/
import proofs.«123069_j50448685859076_1_alg».proof.Proof.Gen.Kernel.Launch
import proofs.«123069_j50448685859076_1_alg».proof.Proof.Gen.Kernel.Skeleton
import proofs.«123069_j50448685859076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point — fetched there, or fetched earlier
    with the block index unmoved since — for any proof data whose array is `V`'s and whose body leaves the block
    in place. One statement per input window. -/
theorem before_cat_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_agg_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_norm_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_norm2_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_w_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole buffer -/

abbrev rCat : Rect S2000x256 := Rect.unit (s := S2000x256) ![0, 0] S2000x256.size inb_S2000x256_S2000x256_0_0
abbrev rRows : Rect S2000x128 := Rect.unit (s := S2000x128) ![0, 0] S2000x128.size inb_S2000x128_S2000x128_0_0
abbrev rCol : Rect S2000x1 := Rect.unit (s := S2000x1) ![0, 0] S2000x1.size inb_S2000x1_S2000x1_0_0
abbrev rW : Rect S128x256 := Rect.unit (s := S128x256) ![0, 0] S128x256.size inb_S128x256_S128x256_0_0
abbrev rB : Rect S1x128 := Rect.unit (s := S1x128) ![0, 0] S1x128.size inb_S1x128_S1x128_0_0

/-! ## What the body leaves in each output buffer -/

/-- The `h` block after the body: its one whole-block store of `agg · norm + norm2 · (cat · Wᵀ + b)`. -/
def hOut (x0 : Vec F S2000x256 .f32) (x1 : Vec F S2000x128 .f32) (x2 : Vec F S2000x1 .f32) (x3 : Vec F S2000x1 .f32) (x4 : Vec F S128x256 .f32) (x5 : Vec F S1x128 .f32) : Vec F S2000x128 .f32 :=
  View.canon [⟨rRows, k1_pay1 (View.ld x0 rCat) (View.ld x4 rW) (View.ld x5 rB) (View.ld x1 rRows) (View.ld x2 rCol) (View.ld x3 rCol)⟩]

/-- The `m` block after the body: its one whole-block store of `h · norm` (the degree column loaded again). -/
def mOut (x0 : Vec F S2000x256 .f32) (x1 : Vec F S2000x128 .f32) (x2 : Vec F S2000x1 .f32) (x3 : Vec F S2000x1 .f32) (x4 : Vec F S128x256 .f32) (x5 : Vec F S1x128 .f32) : Vec F S2000x128 .f32 :=
  View.canon [⟨rRows, k1_pay2 (View.ld x0 rCat) (View.ld x4 rW) (View.ld x5 rB) (View.ld x1 rRows) (View.ld x2 rCol) (View.ld x3 rCol) (View.ld x2 rCol)⟩]

/-- One whole-block store covers the block. -/
theorem cover_rows (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging memrefs — the six inputs' at read contents, the two outputs' at anything —
    runs to the continuation holding the inputs' as they were and the outputs' at `hOut`, `mOut` of the inputs'. -/
theorem sound_kernel (c : Dev nD) (E : Set ℕ) (i : grid1.Coords)
    (arg1 : Memref sig .tc .vmem S2000x256 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S2000x1 .f32) (harg4 : arg4.IsWhole)
    (arg5 : Memref sig .tc .vmem S128x256 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S2000x128 .f32) (harg8 : arg8.IsWhole)
    (x0 : Vec F S2000x256 .f32) (x1 : Vec F S2000x128 .f32) (x2 : Vec F S2000x1 .f32) (x3 : Vec F S2000x1 .f32) (x4 : Vec F S128x256 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hOut x0 x1 x2 x3 x4 x5)
            ∗ owns (c : Thread nD τ) arg8 fullShare (mOut x0 x1 x2 x3 x4 x5)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data of this pipeline on core `c`: the arrays as the region finds them; after the body at point `t`
    each input's buffer at its block and the two outputs' at `hOut`, `mOut` of the input blocks; the invariant
    the scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => hOut (blk V c 0 t) (blk V c 1 t) (blk V c 2 t) (blk V c 3 t) (blk V c 4 t) (blk V c 5 t)
    | ⟨7, _⟩ => mOut (blk V c 0 t) (blk V c 1 t) (blk V c 2 t) (blk V c 3 t) (blk V c 4 t) (blk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = hOut (blk V c 0 t) (blk V c 1 t) (blk V c 2 t) (blk V c 3 t) (blk V c 4 t) (blk V c 5 t) := by dsimp only [dat]
theorem after_7 (c : Dev nD) (t : Fin cfg1.N) : (dat V c).after 7 t = mOut (blk V c 0 t) (blk V c 1 t) (blk V c 2 t) (blk V c 3 t) (blk V c 4 t) (blk V c 5 t) := by dsimp only [dat]

theorem before_0 (c : Dev nD) (t : Fin cfg1.N) (d) : (dat V c).before 0 t d = blk V c 0 t :=
  before_cat_of V (dat V c) (A_eq V c 0) (after_0 V c) t d
theorem before_1 (c : Dev nD) (t : Fin cfg1.N) (d) : (dat V c).before 1 t d = blk V c 1 t :=
  before_agg_of V (dat V c) (A_eq V c 1) (after_1 V c) t d
theorem before_2 (c : Dev nD) (t : Fin cfg1.N) (d) : (dat V c).before 2 t d = blk V c 2 t :=
  before_norm_of V (dat V c) (A_eq V c 2) (after_2 V c) t d
theorem before_3 (c : Dev nD) (t : Fin cfg1.N) (d) : (dat V c).before 3 t d = blk V c 3 t :=
  before_norm2_of V (dat V c) (A_eq V c 3) (after_3 V c) t d
theorem before_4 (c : Dev nD) (t : Fin cfg1.N) (d) : (dat V c).before 4 t d = blk V c 4 t :=
  before_w_of V (dat V c) (A_eq V c 4) (after_4 V c) t d
theorem before_5 (c : Dev nD) (t : Fin cfg1.N) (d) : (dat V c).before 5 t d = blk V c 5 t :=
  before_b_of V (dat V c) (A_eq V c 5) (after_5 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W1, bigSep_W1]
  exact sound_body V c t

end Cert.Kernel.Combine1

end
-- ==== Proof.KBody2.lean ====
/-
  Region 2 of the word-level kernel's @main — the second combine layer
  `h = agg · norm + norm2 · (cat · Wᵀ + b)`, `m = h · norm`, tiled over the node axis in 50 blocks of 2000 rows —
  as ONE pipeline's body half, at a parameter `V` (the buffers' contents when the region is entered): each window's
  block at a grid point, what the body's two stores leave in the two output buffers as functions of the six input
  blocks, the body's triple, the pipeline's proof data, and the body obligation at a generic point. The
  concatenated features, the aggregated messages, the two degree columns, the weights and the bias row are read,
  never written; the two output blocks are each stored whole, so each ends as the canon of its one store.
-/
import proofs.«123069_j50448685859076_1_alg».proof.Proof.Gen.Kernel.Launch
import proofs.«123069_j50448685859076_1_alg».proof.Proof.Gen.Kernel.Skeleton
import proofs.«123069_j50448685859076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point — fetched there, or fetched earlier
    with the block index unmoved since — for any proof data whose array is `V`'s and whose body leaves the block
    in place. One statement per input window. -/
theorem before_cat_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_agg_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_norm_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_norm2_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_w_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole buffer -/

abbrev rCat : Rect S2000x384 := Rect.unit (s := S2000x384) ![0, 0] S2000x384.size inb_S2000x384_S2000x384_0_0
abbrev rRows : Rect S2000x128 := Rect.unit (s := S2000x128) ![0, 0] S2000x128.size inb_S2000x128_S2000x128_0_0
abbrev rCol : Rect S2000x1 := Rect.unit (s := S2000x1) ![0, 0] S2000x1.size inb_S2000x1_S2000x1_0_0
abbrev rW : Rect S128x384 := Rect.unit (s := S128x384) ![0, 0] S128x384.size inb_S128x384_S128x384_0_0
abbrev rB : Rect S1x128 := Rect.unit (s := S1x128) ![0, 0] S1x128.size inb_S1x128_S1x128_0_0

/-! ## What the body leaves in each output buffer -/

/-- The `h` block after the body: its one whole-block store of `agg · norm + norm2 · (cat · Wᵀ + b)`. -/
def hOut (x0 : Vec F S2000x384 .f32) (x1 : Vec F S2000x128 .f32) (x2 : Vec F S2000x1 .f32) (x3 : Vec F S2000x1 .f32) (x4 : Vec F S128x384 .f32) (x5 : Vec F S1x128 .f32) : Vec F S2000x128 .f32 :=
  View.canon [⟨rRows, k2_pay1 (View.ld x0 rCat) (View.ld x4 rW) (View.ld x5 rB) (View.ld x1 rRows) (View.ld x2 rCol) (View.ld x3 rCol)⟩]

/-- The `m` block after the body: its one whole-block store of `h · norm` (the degree column loaded again). -/
def mOut (x0 : Vec F S2000x384 .f32) (x1 : Vec F S2000x128 .f32) (x2 : Vec F S2000x1 .f32) (x3 : Vec F S2000x1 .f32) (x4 : Vec F S128x384 .f32) (x5 : Vec F S1x128 .f32) : Vec F S2000x128 .f32 :=
  View.canon [⟨rRows, k2_pay2 (View.ld x0 rCat) (View.ld x4 rW) (View.ld x5 rB) (View.ld x1 rRows) (View.ld x2 rCol) (View.ld x3 rCol) (View.ld x2 rCol)⟩]

/-- One whole-block store covers the block. -/
theorem cover_rows (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging memrefs — the six inputs' at read contents, the two outputs' at anything —
    runs to the continuation holding the inputs' as they were and the outputs' at `hOut`, `mOut` of the inputs'. -/
theorem sound_kernel (c : Dev nD) (E : Set ℕ) (i : grid2.Coords)
    (arg1 : Memref sig .tc .vmem S2000x384 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S2000x1 .f32) (harg4 : arg4.IsWhole)
    (arg5 : Memref sig .tc .vmem S128x384 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S2000x128 .f32) (harg8 : arg8.IsWhole)
    (x0 : Vec F S2000x384 .f32) (x1 : Vec F S2000x128 .f32) (x2 : Vec F S2000x1 .f32) (x3 : Vec F S2000x1 .f32) (x4 : Vec F S128x384 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hOut x0 x1 x2 x3 x4 x5)
            ∗ owns (c : Thread nD τ) arg8 fullShare (mOut x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7 arg8 harg8) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data of this pipeline on core `c`: the arrays as the region finds them; after the body at point `t`
    each input's buffer at its block and the two outputs' at `hOut`, `mOut` of the input blocks; the invariant
    the scoped rest and the generator register, untouched; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => hOut (blk V c 0 t) (blk V c 1 t) (blk V c 2 t) (blk V c 3 t) (blk V c 4 t) (blk V c 5 t)
    | ⟨7, _⟩ => mOut (blk V c 0 t) (blk V c 1 t) (blk V c 2 t) (blk V c 3 t) (blk V c 4 t) (blk V c 5 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_6 (c : Dev nD) (t : Fin cfg2.N) : (dat V c).after 6 t = hOut (blk V c 0 t) (blk V c 1 t) (blk V c 2 t) (blk V c 3 t) (blk V c 4 t) (blk V c 5 t) := by dsimp only [dat]
theorem after_7 (c : Dev nD) (t : Fin cfg2.N) : (dat V c).after 7 t = mOut (blk V c 0 t) (blk V c 1 t) (blk V c 2 t) (blk V c 3 t) (blk V c 4 t) (blk V c 5 t) := by dsimp only [dat]

theorem before_0 (c : Dev nD) (t : Fin cfg2.N) (d) : (dat V c).before 0 t d = blk V c 0 t :=
  before_cat_of V (dat V c) (A_eq V c 0) (after_0 V c) t d
theorem before_1 (c : Dev nD) (t : Fin cfg2.N) (d) : (dat V c).before 1 t d = blk V c 1 t :=
  before_agg_of V (dat V c) (A_eq V c 1) (after_1 V c) t d
theorem before_2 (c : Dev nD) (t : Fin cfg2.N) (d) : (dat V c).before 2 t d = blk V c 2 t :=
  before_norm_of V (dat V c) (A_eq V c 2) (after_2 V c) t d
theorem before_3 (c : Dev nD) (t : Fin cfg2.N) (d) : (dat V c).before 3 t d = blk V c 3 t :=
  before_norm2_of V (dat V c) (A_eq V c 3) (after_3 V c) t d
theorem before_4 (c : Dev nD) (t : Fin cfg2.N) (d) : (dat V c).before 4 t d = blk V c 4 t :=
  before_w_of V (dat V c) (A_eq V c 4) (after_4 V c) t d
theorem before_5 (c : Dev nD) (t : Fin cfg2.N) (d) : (dat V c).before 5 t d = blk V c 5 t :=
  before_b_of V (dat V c) (A_eq V c 5) (after_5 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W2, bigSep_W2]
  exact sound_body V c t

end Cert.Kernel.Combine2

end
-- ==== Proof.KRun.lean ====
/-
  The idealized kernel's @main from launch to return: three stretches of host operations (the in-degrees, their
  clip, the two degree columns and the bias row), the dense layer's region, a stretch (gather by source, scatter-add
  by destination, concatenate), the first combine region, the same stretch again, the second combine region.
  The buffers' contents at each of the nine boundaries are a fold from the launch memory — a stretch applies its
  operations, a region leaves its input arrays as entered and each output array at its write-backs folded —; every
  pipeline's proof data is taken at its region's entry contents; each region is a segment record over the thread
  state "every unscoped buffer at the boundary's contents, the generator register at some state, nothing owed";
  and the run says: every weakly fair execution terminates, nothing faults, and every unscoped buffer ends at the
  last boundary's contents. The frame claim and the value of the result are both read off that one post.
-/
import proofs.«123069_j50448685859076_1_alg».proof.Proof.KBody0
import proofs.«123069_j50448685859076_1_alg».proof.Proof.KBody1
import proofs.«123069_j50448685859076_1_alg».proof.Proof.KBody2
import proofs.«123069_j50448685859076_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m (c, b)
/-- After the in-degree stretch. -/
abbrev B1 : Dev nD → Valuation τ sig (Elt F) := fun c => StableHlo.after hostOps0 (B0 m c)
/-- After the clip. -/
abbrev B2 : Dev nD → Valuation τ sig (Elt F) := fun c => StableHlo.after hostOps0_1 (B1 m c)
/-- After the degree columns and the bias row: the dense layer's entry. -/
abbrev B3 : Dev nD → Valuation τ sig (Elt F) := fun c => StableHlo.after hostOps0_2 (B2 m c)
abbrev V3 : (c : Dev nD) → (b : Ref sig .tc) → Buf (Elt F) ((c : Thread nD τ).loc b) := fun c b => B3 m c b

/-- After region 0: its arrays at what the pipeline leaves (an input as entered, an output its write-backs folded),
    every other buffer as entered. -/
def B4 (c : Dev nD) : Valuation τ sig (Elt F) :=
  Pipeline.withArrays spec0 c (B3 m c) fun w => (Dense0.dat (V3 m) c).arrAt w cfg0.N
theorem B4_arr (c : Dev nD) (w : Fin cfg0.W) :
    B4 m c (Proc.devRef .tc (Pipeline.arrRef spec0 w)) = (Dense0.dat (V3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
/-- The same read at the TensorCore's references. -/
abbrev V4 : (c : Dev nD) → (b : Ref sig .tc) → Buf (Elt F) ((c : Thread nD τ).loc b) := fun c b => B4 m c b
theorem exit_arr0 (c : Dev nD) (w : Fin cfg0.W) : (Dense0.dat (V3 m) c).arrAt w cfg0.N = V4 m c (Pipeline.arrRef spec0 w) :=
  (B4_arr m c w).symm
theorem exit_rest0 (c : Dev nD) : ∀ b, b ∉ Finset.univ.image (Pipeline.arrRef spec0) → V4 m c b = V3 m c b :=
  fun b hb => B4_of_ne m c b fun w e => hb (Finset.mem_image.mpr ⟨w, Finset.mem_univ _, e⟩)

/-- After the first gather / scatter-add / concatenate stretch: the first combine's entry. -/
abbrev B5 : Dev nD → Valuation τ sig (Elt F) := fun c => StableHlo.after hostOps1 (B4 m c)
abbrev V5 : (c : Dev nD) → (b : Ref sig .tc) → Buf (Elt F) ((c : Thread nD τ).loc b) := fun c b => B5 m c b

/-- After region 1: its arrays at what the pipeline leaves (an input as entered, an output its write-backs folded),
    every other buffer as entered. -/
def B6 (c : Dev nD) : Valuation τ sig (Elt F) :=
  Pipeline.withArrays spec1 c (B5 m c) fun w => (Combine1.dat (V5 m) c).arrAt w cfg1.N
theorem B6_arr (c : Dev nD) (w : Fin cfg1.W) :
    B6 m c (Proc.devRef .tc (Pipeline.arrRef spec1 w)) = (Combine1.dat (V5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
/-- The same read at the TensorCore's references. -/
abbrev V6 : (c : Dev nD) → (b : Ref sig .tc) → Buf (Elt F) ((c : Thread nD τ).loc b) := fun c b => B6 m c b
theorem exit_arr1 (c : Dev nD) (w : Fin cfg1.W) : (Combine1.dat (V5 m) c).arrAt w cfg1.N = V6 m c (Pipeline.arrRef spec1 w) :=
  (B6_arr m c w).symm
theorem exit_rest1 (c : Dev nD) : ∀ b, b ∉ Finset.univ.image (Pipeline.arrRef spec1) → V6 m c b = V5 m c b :=
  fun b hb => B6_of_ne m c b fun w e => hb (Finset.mem_image.mpr ⟨w, Finset.mem_univ _, e⟩)

/-- After the second such stretch: the second combine's entry. -/
abbrev B7 : Dev nD → Valuation τ sig (Elt F) := fun c => StableHlo.after hostOps2 (B6 m c)
abbrev V7 : (c : Dev nD) → (b : Ref sig .tc) → Buf (Elt F) ((c : Thread nD τ).loc b) := fun c b => B7 m c b

/-- After region 2: its arrays at what the pipeline leaves (an input as entered, an output its write-backs folded),
    every other buffer as entered. -/
def B8 (c : Dev nD) : Valuation τ sig (Elt F) :=
  Pipeline.withArrays spec2 c (B7 m c) fun w => (Combine2.dat (V7 m) c).arrAt w cfg2.N
theorem B8_arr (c : Dev nD) (w : Fin cfg2.W) :
    B8 m c (Proc.devRef .tc (Pipeline.arrRef spec2 w)) = (Combine2.dat (V7 m) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m c (Proc.devRef .tc b) = B7 m c (Proc.devRef .tc b) := by
  unfold B8; exact Pipeline.withArrays_of_ne spec2 c _ _ b hb
/-- The same read at the TensorCore's references. -/
abbrev V8 : (c : Dev nD) → (b : Ref sig .tc) → Buf (Elt F) ((c : Thread nD τ).loc b) := fun c b => B8 m c b
theorem exit_arr2 (c : Dev nD) (w : Fin cfg2.W) : (Combine2.dat (V7 m) c).arrAt w cfg2.N = V8 m c (Pipeline.arrRef spec2 w) :=
  (B8_arr m c w).symm
theorem exit_rest2 (c : Dev nD) : ∀ b, b ∉ Finset.univ.image (Pipeline.arrRef spec2) → V8 m c b = V7 m c b :=
  fun b hb => B8_of_ne m c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Dense0.dat (V3 m) c
  | ⟨1, _⟩ => fun c => Combine1.dat (V5 m) c
  | ⟨2, _⟩ => fun c => Combine2.dat (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (B8 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `B3`, left at `B4`. Its arrays are
    split out of the unscoped buffers and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dense0.body_obligation (V3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `B5`, left at `B6`. Its arrays are
    split out of the unscoped buffers and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Combine1.body_obligation (V5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (exit_arr1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `B7`, left at `B8`. Its arrays are
    split out of the unscoped buffers and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Combine2.body_obligation (V7 m) c).loose
  hwaits := Pipeline.hwaits_of_owed_zero _ _ _ _ L lv 2 fun _ _ => rfl
  pre c := iprop(StableHlo.held (c : Thread nD τ) (Pipeline.ucRefs τ sig) (B7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (exit_arr2 m c) (exit_rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .region (reg1 m),
    .host (hseg hostOps2 hostOps2_sub hostOps2_fresh (B6 m)),
    .region (reg2 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m c b)
    (hfin := fun c s' => by
      iintro ⟨⟨Hh, -⟩, HSI⟩
      unfold StableHlo.held
      imodintro
      iapply (pointsTo_read_all (Pipeline.ucRefs τ sig) (fun b => (((c : Thread nD τ)).1, b)) (B8 m c) s')
      isplitl [Hh] <;> iassumption)
    (hQ := fun s h => h)

end Cert.Kernel.Whole

end
-- ==== Proof.KEnds.lean ====
/-
  What the word-level kernel's run leaves, read off its last boundary: an argument array is written by no host
  operation and is at most an INPUT window of a region, so the fold of the boundaries' contents at an argument
  walks back to the launch memory; hence the frame claim. And the result buffer is the second combine region's
  first output array, so it ends at that pipeline's write-backs folded.
-/
import proofs.«123069_j50448685859076_1_alg».proof.Proof.KRun

set_option maxRecDepth 16384

noncomputable section

namespace Cert.Kernel.Whole

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## A region leaves the array of an input window as it found it -/

theorem B4_in (c : Dev nD) (w : Fin cfg0.W) (hin : (cfg0.win w).isOut = false) :
    B4 m c (Proc.devRef .tc (Pipeline.arrRef spec0 w)) = B3 m c (Proc.devRef .tc (Pipeline.arrRef spec0 w)) :=
  (B4_arr m c w).trans (((Dense0.dat (V3 m) c).arrAt_in w hin _).trans (Dense0.A_eq (V3 m) c w))
theorem B6_in (c : Dev nD) (w : Fin cfg1.W) (hin : (cfg1.win w).isOut = false) :
    B6 m c (Proc.devRef .tc (Pipeline.arrRef spec1 w)) = B5 m c (Proc.devRef .tc (Pipeline.arrRef spec1 w)) :=
  (B6_arr m c w).trans (((Combine1.dat (V5 m) c).arrAt_in w hin _).trans (Combine1.A_eq (V5 m) c w))
theorem B8_in (c : Dev nD) (w : Fin cfg2.W) (hin : (cfg2.win w).isOut = false) :
    B8 m c (Proc.devRef .tc (Pipeline.arrRef spec2 w)) = B7 m c (Proc.devRef .tc (Pipeline.arrRef spec2 w)) :=
  (B8_arr m c w).trans (((Combine2.dat (V7 m) c).arrAt_in w hin _).trans (Combine2.A_eq (V7 m) c w))

/-! ## Each argument ends as launched -/

theorem B8_main_arg0 (c : Dev nD) : B8 m c main_arg0 = m ((c : Thread nD τ).loc main_arg0) :=
  calc B8 m c (Proc.devRef .tc main_arg0)
    _ = B7 m c (Proc.devRef .tc main_arg0) := B8_of_ne m c main_arg0 (by decide)
    _ = B6 m c (Proc.devRef .tc main_arg0) := StableHlo.after_of_writes_sub hostOps2 _ hostOps2_writes (by decide)
    _ = B5 m c (Proc.devRef .tc main_arg0) := B6_of_ne m c main_arg0 (by decide)
    _ = B4 m c (Proc.devRef .tc main_arg0) := StableHlo.after_of_writes_sub hostOps1 _ hostOps1_writes (by decide)
    _ = B3 m c (Proc.devRef .tc main_arg0) := (B4_in m c 0 rfl)
    _ = B2 m c (Proc.devRef .tc main_arg0) := StableHlo.after_of_writes_sub hostOps0_2 _ hostOps0_2_writes (by decide)
    _ = B1 m c (Proc.devRef .tc main_arg0) := StableHlo.after_of_writes_sub hostOps0_1 _ hostOps0_1_writes (by decide)
    _ = B0 m c (Proc.devRef .tc main_arg0) := StableHlo.after_of_writes_sub hostOps0 _ hostOps0_writes (by decide)
    _ = m ((c : Thread nD τ).loc main_arg0) := rfl
theorem B8_main_arg1 (c : Dev nD) : B8 m c main_arg1 = m ((c : Thread nD τ).loc main_arg1) :=
  calc B8 m c (Proc.devRef .tc main_arg1)
    _ = B7 m c (Proc.devRef .tc main_arg1) := B8_of_ne m c main_arg1 (by decide)
    _ = B6 m c (Proc.devRef .tc main_arg1) := StableHlo.after_of_writes_sub hostOps2 _ hostOps2_writes (by decide)
    _ = B5 m c (Proc.devRef .tc main_arg1) := B6_of_ne m c main_arg1 (by decide)
    _ = B4 m c (Proc.devRef .tc main_arg1) := StableHlo.after_of_writes_sub hostOps1 _ hostOps1_writes (by decide)
    _ = B3 m c (Proc.devRef .tc main_arg1) := B4_of_ne m c main_arg1 (by decide)
    _ = B2 m c (Proc.devRef .tc main_arg1) := StableHlo.after_of_writes_sub hostOps0_2 _ hostOps0_2_writes (by decide)
    _ = B1 m c (Proc.devRef .tc main_arg1) := StableHlo.after_of_writes_sub hostOps0_1 _ hostOps0_1_writes (by decide)
    _ = B0 m c (Proc.devRef .tc main_arg1) := StableHlo.after_of_writes_sub hostOps0 _ hostOps0_writes (by decide)
    _ = m ((c : Thread nD τ).loc main_arg1) := rfl
theorem B8_main_arg2 (c : Dev nD) : B8 m c main_arg2 = m ((c : Thread nD τ).loc main_arg2) :=
  calc B8 m c (Proc.devRef .tc main_arg2)
    _ = B7 m c (Proc.devRef .tc main_arg2) := B8_of_ne m c main_arg2 (by decide)
    _ = B6 m c (Proc.devRef .tc main_arg2) := StableHlo.after_of_writes_sub hostOps2 _ hostOps2_writes (by decide)
    _ = B5 m c (Proc.devRef .tc main_arg2) := B6_of_ne m c main_arg2 (by decide)
    _ = B4 m c (Proc.devRef .tc main_arg2) := StableHlo.after_of_writes_sub hostOps1 _ hostOps1_writes (by decide)
    _ = B3 m c (Proc.devRef .tc main_arg2) := B4_of_ne m c main_arg2 (by decide)
    _ = B2 m c (Proc.devRef .tc main_arg2) := StableHlo.after_of_writes_sub hostOps0_2 _ hostOps0_2_writes (by decide)
    _ = B1 m c (Proc.devRef .tc main_arg2) := StableHlo.after_of_writes_sub hostOps0_1 _ hostOps0_1_writes (by decide)
    _ = B0 m c (Proc.devRef .tc main_arg2) := StableHlo.after_of_writes_sub hostOps0 _ hostOps0_writes (by decide)
    _ = m ((c : Thread nD τ).loc main_arg2) := rfl
theorem B8_main_arg3 (c : Dev nD) : B8 m c main_arg3 = m ((c : Thread nD τ).loc main_arg3) :=
  calc B8 m c (Proc.devRef .tc main_arg3)
    _ = B7 m c (Proc.devRef .tc main_arg3) := B8_of_ne m c main_arg3 (by decide)
    _ = B6 m c (Proc.devRef .tc main_arg3) := StableHlo.after_of_writes_sub hostOps2 _ hostOps2_writes (by decide)
    _ = B5 m c (Proc.devRef .tc main_arg3) := B6_of_ne m c main_arg3 (by decide)
    _ = B4 m c (Proc.devRef .tc main_arg3) := StableHlo.after_of_writes_sub hostOps1 _ hostOps1_writes (by decide)
    _ = B3 m c (Proc.devRef .tc main_arg3) := (B4_in m c 1 rfl)
    _ = B2 m c (Proc.devRef .tc main_arg3) := StableHlo.after_of_writes_sub hostOps0_2 _ hostOps0_2_writes (by decide)
    _ = B1 m c (Proc.devRef .tc main_arg3) := StableHlo.after_of_writes_sub hostOps0_1 _ hostOps0_1_writes (by decide)
    _ = B0 m c (Proc.devRef .tc main_arg3) := StableHlo.after_of_writes_sub hostOps0 _ hostOps0_writes (by decide)
    _ = m ((c : Thread nD τ).loc main_arg3) := rfl
theorem B8_main_arg4 (c : Dev nD) : B8 m c main_arg4 = m ((c : Thread nD τ).loc main_arg4) :=
  calc B8 m c (Proc.devRef .tc main_arg4)
    _ = B7 m c (Proc.devRef .tc main_arg4) := B8_of_ne m c main_arg4 (by decide)
    _ = B6 m c (Proc.devRef .tc main_arg4) := StableHlo.after_of_writes_sub hostOps2 _ hostOps2_writes (by decide)
    _ = B5 m c (Proc.devRef .tc main_arg4) := B6_of_ne m c main_arg4 (by decide)
    _ = B4 m c (Proc.devRef .tc main_arg4) := StableHlo.after_of_writes_sub hostOps1 _ hostOps1_writes (by decide)
    _ = B3 m c (Proc.devRef .tc main_arg4) := B4_of_ne m c main_arg4 (by decide)
    _ = B2 m c (Proc.devRef .tc main_arg4) := StableHlo.after_of_writes_sub hostOps0_2 _ hostOps0_2_writes (by decide)
    _ = B1 m c (Proc.devRef .tc main_arg4) := StableHlo.after_of_writes_sub hostOps0_1 _ hostOps0_1_writes (by decide)
    _ = B0 m c (Proc.devRef .tc main_arg4) := StableHlo.after_of_writes_sub hostOps0 _ hostOps0_writes (by decide)
    _ = m ((c : Thread nD τ).loc main_arg4) := rfl
theorem B8_main_arg5 (c : Dev nD) : B8 m c main_arg5 = m ((c : Thread nD τ).loc main_arg5) :=
  calc B8 m c (Proc.devRef .tc main_arg5)
    _ = B7 m c (Proc.devRef .tc main_arg5) := B8_of_ne m c main_arg5 (by decide)
    _ = B6 m c (Proc.devRef .tc main_arg5) := StableHlo.after_of_writes_sub hostOps2 _ hostOps2_writes (by decide)
    _ = B5 m c (Proc.devRef .tc main_arg5) := (B6_in m c 4 rfl)
    _ = B4 m c (Proc.devRef .tc main_arg5) := StableHlo.after_of_writes_sub hostOps1 _ hostOps1_writes (by decide)
    _ = B3 m c (Proc.devRef .tc main_arg5) := B4_of_ne m c main_arg5 (by decide)
    _ = B2 m c (Proc.devRef .tc main_arg5) := StableHlo.after_of_writes_sub hostOps0_2 _ hostOps0_2_writes (by decide)
    _ = B1 m c (Proc.devRef .tc main_arg5) := StableHlo.after_of_writes_sub hostOps0_1 _ hostOps0_1_writes (by decide)
    _ = B0 m c (Proc.devRef .tc main_arg5) := StableHlo.after_of_writes_sub hostOps0 _ hostOps0_writes (by decide)
    _ = m ((c : Thread nD τ).loc main_arg5) := rfl
theorem B8_main_arg6 (c : Dev nD) : B8 m c main_arg6 = m ((c : Thread nD τ).loc main_arg6) :=
  calc B8 m c (Proc.devRef .tc main_arg6)
    _ = B7 m c (Proc.devRef .tc main_arg6) := B8_of_ne m c main_arg6 (by decide)
    _ = B6 m c (Proc.devRef .tc main_arg6) := StableHlo.after_of_writes_sub hostOps2 _ hostOps2_writes (by decide)
    _ = B5 m c (Proc.devRef .tc main_arg6) := B6_of_ne m c main_arg6 (by decide)
    _ = B4 m c (Proc.devRef .tc main_arg6) := StableHlo.after_of_writes_sub hostOps1 _ hostOps1_writes (by decide)
    _ = B3 m c (Proc.devRef .tc main_arg6) := B4_of_ne m c main_arg6 (by decide)
    _ = B2 m c (Proc.devRef .tc main_arg6) := StableHlo.after_of_writes_sub hostOps0_2 _ hostOps0_2_writes (by decide)
    _ = B1 m c (Proc.devRef .tc main_arg6) := StableHlo.after_of_writes_sub hostOps0_1 _ hostOps0_1_writes (by decide)
    _ = B0 m c (Proc.devRef .tc main_arg6) := StableHlo.after_of_writes_sub hostOps0 _ hostOps0_writes (by decide)
    _ = m ((c : Thread nD τ).loc main_arg6) := rfl
theorem B8_main_arg7 (c : Dev nD) : B8 m c main_arg7 = m ((c : Thread nD τ).loc main_arg7) :=
  calc B8 m c (Proc.devRef .tc main_arg7)
    _ = B7 m c (Proc.devRef .tc main_arg7) := (B8_in m c 4 rfl)
    _ = B6 m c (Proc.devRef .tc main_arg7) := StableHlo.after_of_writes_sub hostOps2 _ hostOps2_writes (by decide)
    _ = B5 m c (Proc.devRef .tc main_arg7) := B6_of_ne m c main_arg7 (by decide)
    _ = B4 m c (Proc.devRef .tc main_arg7) := StableHlo.after_of_writes_sub hostOps1 _ hostOps1_writes (by decide)
    _ = B3 m c (Proc.devRef .tc main_arg7) := B4_of_ne m c main_arg7 (by decide)
    _ = B2 m c (Proc.devRef .tc main_arg7) := StableHlo.after_of_writes_sub hostOps0_2 _ hostOps0_2_writes (by decide)
    _ = B1 m c (Proc.devRef .tc main_arg7) := StableHlo.after_of_writes_sub hostOps0_1 _ hostOps0_1_writes (by decide)
    _ = B0 m c (Proc.devRef .tc main_arg7) := StableHlo.after_of_writes_sub hostOps0 _ hostOps0_writes (by decide)
    _ = m ((c : Thread nD τ).loc main_arg7) := rfl
theorem B8_main_arg8 (c : Dev nD) : B8 m c main_arg8 = m ((c : Thread nD τ).loc main_arg8) :=
  calc B8 m c (Proc.devRef .tc main_arg8)
    _ = B7 m c (Proc.devRef .tc main_arg8) := B8_of_ne m c main_arg8 (by decide)
    _ = B6 m c (Proc.devRef .tc main_arg8) := StableHlo.after_of_writes_sub hostOps2 _ hostOps2_writes (by decide)
    _ = B5 m c (Proc.devRef .tc main_arg8) := B6_of_ne m c main_arg8 (by decide)
    _ = B4 m c (Proc.devRef .tc main_arg8) := StableHlo.after_of_writes_sub hostOps1 _ hostOps1_writes (by decide)
    _ = B3 m c (Proc.devRef .tc main_arg8) := B4_of_ne m c main_arg8 (by decide)
    _ = B2 m c (Proc.devRef .tc main_arg8) := StableHlo.after_of_writes_sub hostOps0_2 _ hostOps0_2_writes (by decide)
    _ = B1 m c (Proc.devRef .tc main_arg8) := StableHlo.after_of_writes_sub hostOps0_1 _ hostOps0_1_writes (by decide)
    _ = B0 m c (Proc.devRef .tc main_arg8) := StableHlo.after_of_writes_sub hostOps0 _ hostOps0_writes (by decide)
    _ = m ((c : Thread nD τ).loc main_arg8) := rfl

/-! ## The frame -/

/-- Every weakly fair execution terminates, nothing faults, and the nine argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (B8_main_arg0 m c),
    (h c _ (mem_uc main_arg1 (by decide))).trans (B8_main_arg1 m c),
    (h c _ (mem_uc main_arg2 (by decide))).trans (B8_main_arg2 m c),
    (h c _ (mem_uc main_arg3 (by decide))).trans (B8_main_arg3 m c),
    (h c _ (mem_uc main_arg4 (by decide))).trans (B8_main_arg4 m c),
    (h c _ (mem_uc main_arg5 (by decide))).trans (B8_main_arg5 m c),
    (h c _ (mem_uc main_arg6 (by decide))).trans (B8_main_arg6 m c),
    (h c _ (mem_uc main_arg7 (by decide))).trans (B8_main_arg7 m c),
    (h c _ (mem_uc main_arg8 (by decide))).trans (B8_main_arg8 m c)⟩)
    (run_all m ρ)

/-! ## The result -/

/-- The run with the result buffer named: it ends at the second combine pipeline's first output array, the
    arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v37_0) = (Combine2.dat (V7 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v37_0 (by decide))).trans (B8_arr m c 6),
    (h c _ (mem_uc main_arg0 (by decide))).trans (B8_main_arg0 m c),
    (h c _ (mem_uc main_arg1 (by decide))).trans (B8_main_arg1 m c),
    (h c _ (mem_uc main_arg2 (by decide))).trans (B8_main_arg2 m c),
    (h c _ (mem_uc main_arg3 (by decide))).trans (B8_main_arg3 m c),
    (h c _ (mem_uc main_arg4 (by decide))).trans (B8_main_arg4 m c),
    (h c _ (mem_uc main_arg5 (by decide))).trans (B8_main_arg5 m c),
    (h c _ (mem_uc main_arg6 (by decide))).trans (B8_main_arg6 m c),
    (h c _ (mem_uc main_arg7 (by decide))).trans (B8_main_arg7 m c),
    (h c _ (mem_uc main_arg8 (by decide))).trans (B8_main_arg8 m c)⟩)
    (run_all m ρ)

end Cert.Kernel.Whole

end
-- ==== Proof.KiBody0.lean ====
/-
  Region 0 of the idealized kernel's @main — the dense layer `h0 = feat · W0ᵀ + b0`, `m0 = h0 · norm`, tiled over
  the node axis in 50 blocks of 2000 rows — as ONE pipeline's body half, at a parameter `V` (the buffers' contents
  when the region is entered): each window's block at a grid point, what the body's two stores leave in the two
  output buffers as functions of the four input blocks, the body's triple, the pipeline's proof data, and the
  body obligation at a generic point. The weights, the bias row and the degree column are read, never written;
  the two output blocks are each stored whole, so each ends as the canon of its one store.
-/
import proofs.«123069_j50448685859076_1_alg».proof.Proof.Gen.KernelIdeal.Launch
import proofs.«123069_j50448685859076_1_alg».proof.Proof.Gen.KernelIdeal.Skeleton
import proofs.«123069_j50448685859076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point — fetched there, or fetched earlier
    with the block index unmoved since — for any proof data whose array is `V`'s and whose body leaves the block
    in place. One statement per input window: the row block of `feat`, the whole `W0`, the bias row, the degree
    column's row block. -/
theorem before_feat_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_norm_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole buffer -/

abbrev rRows : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rCol : Rect S2000x1 := Rect.unit (s := S2000x1) ![0, 0] S2000x1.size inb_S2000x1_S2000x1_0_0

/-! ## What the body leaves in each output buffer -/

/-- The `h0` block after the body: its one whole-block store of `feat_blk · W0ᵀ + b0`. -/
def hOut (x0 : Vec F S2000x128 .f32) (x1 : Vec F S128x128 .f32) (x2 : Vec F S1x128 .f32) : Vec F S2000x128 .f32 :=
  View.canon [⟨rRows, k0_pay1 (View.ld x0 rRows) (View.ld x1 rW) (View.ld x2 rB)⟩]

/-- The `m0` block after the body: its one whole-block store of `h0_blk · norm_blk`. -/
def mOut (x0 : Vec F S2000x128 .f32) (x1 : Vec F S128x128 .f32) (x2 : Vec F S1x128 .f32) (x3 : Vec F S2000x1 .f32) : Vec F S2000x128 .f32 :=
  View.canon [⟨rRows, k0_pay2 (View.ld x0 rRows) (View.ld x1 rW) (View.ld x2 rB) (View.ld x3 rCol)⟩]

/-- One whole-block store covers the block. -/
theorem cover_rows (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging memrefs — the four inputs' at read contents, the two outputs' at anything —
    runs to the continuation holding the inputs' as they were and the outputs' at `hOut`, `mOut` of the inputs'. -/
theorem sound_kernel (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x1 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x128 .f32) (x1 : Vec F S128x128 .f32) (x2 : Vec F S1x128 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (hOut x0 x1 x2)
            ∗ owns (c : Thread nD τ) arg6 fullShare (mOut x0 x1 x2 x3)) -∗ K ⟨⟩))
      ⊢ wp frame (wpE (defs₀ (F := F)) Variants.none c none) E (cc0__linear0_kernel i arg1 harg1 arg2 harg2 arg3 harg3 arg4 harg4 arg5 harg5 arg6 harg6) K := by
  simp only [cc0__linear0_kernel_eq_skeleton]; unfold cc0__linear0_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_rows _)
  iexists _; isplitr
  swap; · iexact H5
  ipureintro
  exact View.read_writes_eq_canon _ _ _ (cover_rows _)

/-! ## The pipeline's proof data -/

/-- The proof data of this pipeline on core `c`: the arrays as the region finds them; after the body at point `t`
    each input's buffer at its block and the two outputs' at `hOut`, `mOut` of the input blocks; the invariant
    the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => hOut (blk V c 0 t) (blk V c 1 t) (blk V c 2 t)
    | ⟨5, _⟩ => mOut (blk V c 0 t) (blk V c 1 t) (blk V c 2 t) (blk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = hOut (blk V c 0 t) (blk V c 1 t) (blk V c 2 t) := by dsimp only [dat]
theorem after_5 (c : Dev nD) (t : Fin cfg0.N) : (dat V c).after 5 t = mOut (blk V c 0 t) (blk V c 1 t) (blk V c 2 t) (blk V c 3 t) := by dsimp only [dat]

theorem before_0 (c : Dev nD) (t : Fin cfg0.N) (d) : (dat V c).before 0 t d = blk V c 0 t :=
  before_feat_of V (dat V c) (A_eq V c 0) (after_0 V c) t d
theorem before_1 (c : Dev nD) (t : Fin cfg0.N) (d) : (dat V c).before 1 t d = blk V c 1 t :=
  before_w_of V (dat V c) (A_eq V c 1) (after_1 V c) t d
theorem before_2 (c : Dev nD) (t : Fin cfg0.N) (d) : (dat V c).before 2 t d = blk V c 2 t :=
  before_b_of V (dat V c) (A_eq V c 2) (after_2 V c) t d
theorem before_3 (c : Dev nD) (t : Fin cfg0.N) (d) : (dat V c).before 3 t d = blk V c 3 t :=
  before_norm_of V (dat V c) (A_eq V c 3) (after_3 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W0, bigSep_W0]
  exact sound_body V c t

end Cert.KernelIdeal.Dense0

end
-- ==== Proof.KiBody1.lean ====
/-
  Region 1 of the idealized kernel's @main — the first combine layer
  `h = agg · norm + norm2 · (cat · Wᵀ + b)`, `m = h · norm`, tiled over the node axis in 50 blocks of 2000 rows —
  as ONE pipeline's body half, at a parameter `V` (the buffers' contents when the region is entered): each window's
  block at a grid point, what the body's two stores leave in the two output buffers as functions of the six input
  blocks, the body's triple, the pipeline's proof data, and the body obligation at a generic point. The
  concatenated features, the aggregated messages, the two degree columns, the weights and the bias row are read,
  never written; the two output blocks are each stored whole, so each ends as the canon of its one store.
-/
import proofs.«123069_j50448685859076_1_alg».proof.Proof.Gen.KernelIdeal.Launch
import proofs.«123069_j50448685859076_1_alg».proof.Proof.Gen.KernelIdeal.Skeleton
import proofs.«123069_j50448685859076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point — fetched there, or fetched earlier
    with the block index unmoved since — for any proof data whose array is `V`'s and whose body leaves the block
    in place. One statement per input window. -/
theorem before_cat_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_agg_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_norm_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_norm2_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_w_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole buffer -/

abbrev rCat : Rect S2000x256 := Rect.unit (s := S2000x256) ![0, 0] S2000x256.size inb_S2000x256_S2000x256_0_0
abbrev rRows : Rect S2000x128 := Rect.unit (s := S2000x128) ![0, 0] S2000x128.size inb_S2000x128_S2000x128_0_0
abbrev rCol : Rect S2000x1 := Rect.unit (s := S2000x1) ![0, 0] S2000x1.size inb_S2000x1_S2000x1_0_0
abbrev rW : Rect S128x256 := Rect.unit (s := S128x256) ![0, 0] S128x256.size inb_S128x256_S128x256_0_0
abbrev rB : Rect S1x128 := Rect.unit (s := S1x128) ![0, 0] S1x128.size inb_S1x128_S1x128_0_0

/-! ## What the body leaves in each output buffer -/

/-- The `h` block after the body: its one whole-block store of `agg · norm + norm2 · (cat · Wᵀ + b)`. -/
def hOut (x0 : Vec F S2000x256 .f32) (x1 : Vec F S2000x128 .f32) (x2 : Vec F S2000x1 .f32) (x3 : Vec F S2000x1 .f32) (x4 : Vec F S128x256 .f32) (x5 : Vec F S1x128 .f32) : Vec F S2000x128 .f32 :=
  View.canon [⟨rRows, k1_pay1 (View.ld x0 rCat) (View.ld x4 rW) (View.ld x5 rB) (View.ld x1 rRows) (View.ld x2 rCol) (View.ld x3 rCol)⟩]

/-- The `m` block after the body: its one whole-block store of `h · norm` (the degree column loaded again). -/
def mOut (x0 : Vec F S2000x256 .f32) (x1 : Vec F S2000x128 .f32) (x2 : Vec F S2000x1 .f32) (x3 : Vec F S2000x1 .f32) (x4 : Vec F S128x256 .f32) (x5 : Vec F S1x128 .f32) : Vec F S2000x128 .f32 :=
  View.canon [⟨rRows, k1_pay2 (View.ld x0 rCat) (View.ld x4 rW) (View.ld x5 rB) (View.ld x1 rRows) (View.ld x2 rCol) (View.ld x3 rCol) (View.ld x2 rCol)⟩]

/-- One whole-block store covers the block. -/
theorem cover_rows (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging memrefs — the six inputs' at read contents, the two outputs' at anything —
    runs to the continuation holding the inputs' as they were and the outputs' at `hOut`, `mOut` of the inputs'. -/
theorem sound_kernel (c : Dev nD) (E : Set ℕ) (i : grid1.Coords)
    (arg1 : Memref sig .tc .vmem S2000x256 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S2000x1 .f32) (harg4 : arg4.IsWhole)
    (arg5 : Memref sig .tc .vmem S128x256 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S2000x128 .f32) (harg8 : arg8.IsWhole)
    (x0 : Vec F S2000x256 .f32) (x1 : Vec F S2000x128 .f32) (x2 : Vec F S2000x1 .f32) (x3 : Vec F S2000x1 .f32) (x4 : Vec F S128x256 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hOut x0 x1 x2 x3 x4 x5)
            ∗ owns (c : Thread nD τ) arg8 fullShare (mOut x0 x1 x2 x3 x4 x5)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data of this pipeline on core `c`: the arrays as the region finds them; after the body at point `t`
    each input's buffer at its block and the two outputs' at `hOut`, `mOut` of the input blocks; the invariant
    the scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => hOut (blk V c 0 t) (blk V c 1 t) (blk V c 2 t) (blk V c 3 t) (blk V c 4 t) (blk V c 5 t)
    | ⟨7, _⟩ => mOut (blk V c 0 t) (blk V c 1 t) (blk V c 2 t) (blk V c 3 t) (blk V c 4 t) (blk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = hOut (blk V c 0 t) (blk V c 1 t) (blk V c 2 t) (blk V c 3 t) (blk V c 4 t) (blk V c 5 t) := by dsimp only [dat]
theorem after_7 (c : Dev nD) (t : Fin cfg1.N) : (dat V c).after 7 t = mOut (blk V c 0 t) (blk V c 1 t) (blk V c 2 t) (blk V c 3 t) (blk V c 4 t) (blk V c 5 t) := by dsimp only [dat]

theorem before_0 (c : Dev nD) (t : Fin cfg1.N) (d) : (dat V c).before 0 t d = blk V c 0 t :=
  before_cat_of V (dat V c) (A_eq V c 0) (after_0 V c) t d
theorem before_1 (c : Dev nD) (t : Fin cfg1.N) (d) : (dat V c).before 1 t d = blk V c 1 t :=
  before_agg_of V (dat V c) (A_eq V c 1) (after_1 V c) t d
theorem before_2 (c : Dev nD) (t : Fin cfg1.N) (d) : (dat V c).before 2 t d = blk V c 2 t :=
  before_norm_of V (dat V c) (A_eq V c 2) (after_2 V c) t d
theorem before_3 (c : Dev nD) (t : Fin cfg1.N) (d) : (dat V c).before 3 t d = blk V c 3 t :=
  before_norm2_of V (dat V c) (A_eq V c 3) (after_3 V c) t d
theorem before_4 (c : Dev nD) (t : Fin cfg1.N) (d) : (dat V c).before 4 t d = blk V c 4 t :=
  before_w_of V (dat V c) (A_eq V c 4) (after_4 V c) t d
theorem before_5 (c : Dev nD) (t : Fin cfg1.N) (d) : (dat V c).before 5 t d = blk V c 5 t :=
  before_b_of V (dat V c) (A_eq V c 5) (after_5 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W1, bigSep_W1]
  exact sound_body V c t

end Cert.KernelIdeal.Combine1

end
-- ==== Proof.KiBody2.lean ====
/-
  Region 2 of the idealized kernel's @main — the second combine layer
  `h = agg · norm + norm2 · (cat · Wᵀ + b)`, `m = h · norm`, tiled over the node axis in 50 blocks of 2000 rows —
  as ONE pipeline's body half, at a parameter `V` (the buffers' contents when the region is entered): each window's
  block at a grid point, what the body's two stores leave in the two output buffers as functions of the six input
  blocks, the body's triple, the pipeline's proof data, and the body obligation at a generic point. The
  concatenated features, the aggregated messages, the two degree columns, the weights and the bias row are read,
  never written; the two output blocks are each stored whole, so each ends as the canon of its one store.
-/
import proofs.«123069_j50448685859076_1_alg».proof.Proof.Gen.KernelIdeal.Launch
import proofs.«123069_j50448685859076_1_alg».proof.Proof.Gen.KernelIdeal.Skeleton
import proofs.«123069_j50448685859076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point — fetched there, or fetched earlier
    with the block index unmoved since — for any proof data whose array is `V`'s and whose body leaves the block
    in place. One statement per input window. -/
theorem before_cat_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_agg_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_norm_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_norm2_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_w_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole buffer -/

abbrev rCat : Rect S2000x384 := Rect.unit (s := S2000x384) ![0, 0] S2000x384.size inb_S2000x384_S2000x384_0_0
abbrev rRows : Rect S2000x128 := Rect.unit (s := S2000x128) ![0, 0] S2000x128.size inb_S2000x128_S2000x128_0_0
abbrev rCol : Rect S2000x1 := Rect.unit (s := S2000x1) ![0, 0] S2000x1.size inb_S2000x1_S2000x1_0_0
abbrev rW : Rect S128x384 := Rect.unit (s := S128x384) ![0, 0] S128x384.size inb_S128x384_S128x384_0_0
abbrev rB : Rect S1x128 := Rect.unit (s := S1x128) ![0, 0] S1x128.size inb_S1x128_S1x128_0_0

/-! ## What the body leaves in each output buffer -/

/-- The `h` block after the body: its one whole-block store of `agg · norm + norm2 · (cat · Wᵀ + b)`. -/
def hOut (x0 : Vec F S2000x384 .f32) (x1 : Vec F S2000x128 .f32) (x2 : Vec F S2000x1 .f32) (x3 : Vec F S2000x1 .f32) (x4 : Vec F S128x384 .f32) (x5 : Vec F S1x128 .f32) : Vec F S2000x128 .f32 :=
  View.canon [⟨rRows, k2_pay1 (View.ld x0 rCat) (View.ld x4 rW) (View.ld x5 rB) (View.ld x1 rRows) (View.ld x2 rCol) (View.ld x3 rCol)⟩]

/-- The `m` block after the body: its one whole-block store of `h · norm` (the degree column loaded again). -/
def mOut (x0 : Vec F S2000x384 .f32) (x1 : Vec F S2000x128 .f32) (x2 : Vec F S2000x1 .f32) (x3 : Vec F S2000x1 .f32) (x4 : Vec F S128x384 .f32) (x5 : Vec F S1x128 .f32) : Vec F S2000x128 .f32 :=
  View.canon [⟨rRows, k2_pay2 (View.ld x0 rCat) (View.ld x4 rW) (View.ld x5 rB) (View.ld x1 rRows) (View.ld x2 rCol) (View.ld x3 rCol) (View.ld x2 rCol)⟩]

/-- One whole-block store covers the block. -/
theorem cover_rows (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging memrefs — the six inputs' at read contents, the two outputs' at anything —
    runs to the continuation holding the inputs' as they were and the outputs' at `hOut`, `mOut` of the inputs'. -/
theorem sound_kernel (c : Dev nD) (E : Set ℕ) (i : grid2.Coords)
    (arg1 : Memref sig .tc .vmem S2000x384 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S2000x1 .f32) (harg4 : arg4.IsWhole)
    (arg5 : Memref sig .tc .vmem S128x384 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S2000x128 .f32) (harg8 : arg8.IsWhole)
    (x0 : Vec F S2000x384 .f32) (x1 : Vec F S2000x128 .f32) (x2 : Vec F S2000x1 .f32) (x3 : Vec F S2000x1 .f32) (x4 : Vec F S128x384 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hOut x0 x1 x2 x3 x4 x5)
            ∗ owns (c : Thread nD τ) arg8 fullShare (mOut x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7 arg8 harg8) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data of this pipeline on core `c`: the arrays as the region finds them; after the body at point `t`
    each input's buffer at its block and the two outputs' at `hOut`, `mOut` of the input blocks; the invariant
    the scoped rest and the generator register, untouched; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => hOut (blk V c 0 t) (blk V c 1 t) (blk V c 2 t) (blk V c 3 t) (blk V c 4 t) (blk V c 5 t)
    | ⟨7, _⟩ => mOut (blk V c 0 t) (blk V c 1 t) (blk V c 2 t) (blk V c 3 t) (blk V c 4 t) (blk V c 5 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_6 (c : Dev nD) (t : Fin cfg2.N) : (dat V c).after 6 t = hOut (blk V c 0 t) (blk V c 1 t) (blk V c 2 t) (blk V c 3 t) (blk V c 4 t) (blk V c 5 t) := by dsimp only [dat]
theorem after_7 (c : Dev nD) (t : Fin cfg2.N) : (dat V c).after 7 t = mOut (blk V c 0 t) (blk V c 1 t) (blk V c 2 t) (blk V c 3 t) (blk V c 4 t) (blk V c 5 t) := by dsimp only [dat]

theorem before_0 (c : Dev nD) (t : Fin cfg2.N) (d) : (dat V c).before 0 t d = blk V c 0 t :=
  before_cat_of V (dat V c) (A_eq V c 0) (after_0 V c) t d
theorem before_1 (c : Dev nD) (t : Fin cfg2.N) (d) : (dat V c).before 1 t d = blk V c 1 t :=
  before_agg_of V (dat V c) (A_eq V c 1) (after_1 V c) t d
theorem before_2 (c : Dev nD) (t : Fin cfg2.N) (d) : (dat V c).before 2 t d = blk V c 2 t :=
  before_norm_of V (dat V c) (A_eq V c 2) (after_2 V c) t d
theorem before_3 (c : Dev nD) (t : Fin cfg2.N) (d) : (dat V c).before 3 t d = blk V c 3 t :=
  before_norm2_of V (dat V c) (A_eq V c 3) (after_3 V c) t d
theorem before_4 (c : Dev nD) (t : Fin cfg2.N) (d) : (dat V c).before 4 t d = blk V c 4 t :=
  before_w_of V (dat V c) (A_eq V c 4) (after_4 V c) t d
theorem before_5 (c : Dev nD) (t : Fin cfg2.N) (d) : (dat V c).before 5 t d = blk V c 5 t :=
  before_b_of V (dat V c) (A_eq V c 5) (after_5 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W2, bigSep_W2]
  exact sound_body V c t

end Cert.KernelIdeal.Combine2

end
-- ==== Proof.KiRun.lean ====
/-
  The idealized kernel's @main from launch to return: three stretches of host operations (the in-degrees, their
  clip, the two degree columns and the bias row), the dense layer's region, a stretch (gather by source, scatter-add
  by destination, concatenate), the first combine region, the same stretch again, the second combine region.
  The buffers' contents at each of the nine boundaries are a fold from the launch memory — a stretch applies its
  operations, a region leaves its input arrays as entered and each output array at its write-backs folded —; every
  pipeline's proof data is taken at its region's entry contents; each region is a segment record over the thread
  state "every unscoped buffer at the boundary's contents, the generator register at some state, nothing owed";
  and the run says: every weakly fair execution terminates, nothing faults, and every unscoped buffer ends at the
  last boundary's contents. The frame claim and the value of the result are both read off that one post.
-/
import proofs.«123069_j50448685859076_1_alg».proof.Proof.KiBody0
import proofs.«123069_j50448685859076_1_alg».proof.Proof.KiBody1
import proofs.«123069_j50448685859076_1_alg».proof.Proof.KiBody2
import proofs.«123069_j50448685859076_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m (c, b)
/-- After the in-degree stretch. -/
abbrev B1 : Dev nD → Valuation τ sig (Elt F) := fun c => StableHlo.after hostOps0 (B0 m c)
/-- After the clip. -/
abbrev B2 : Dev nD → Valuation τ sig (Elt F) := fun c => StableHlo.after hostOps0_1 (B1 m c)
/-- After the degree columns and the bias row: the dense layer's entry. -/
abbrev B3 : Dev nD → Valuation τ sig (Elt F) := fun c => StableHlo.after hostOps0_2 (B2 m c)
abbrev V3 : (c : Dev nD) → (b : Ref sig .tc) → Buf (Elt F) ((c : Thread nD τ).loc b) := fun c b => B3 m c b

/-- After region 0: its arrays at what the pipeline leaves (an input as entered, an output its write-backs folded),
    every other buffer as entered. -/
def B4 (c : Dev nD) : Valuation τ sig (Elt F) :=
  Pipeline.withArrays spec0 c (B3 m c) fun w => (Dense0.dat (V3 m) c).arrAt w cfg0.N
theorem B4_arr (c : Dev nD) (w : Fin cfg0.W) :
    B4 m c (Proc.devRef .tc (Pipeline.arrRef spec0 w)) = (Dense0.dat (V3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
/-- The same read at the TensorCore's references. -/
abbrev V4 : (c : Dev nD) → (b : Ref sig .tc) → Buf (Elt F) ((c : Thread nD τ).loc b) := fun c b => B4 m c b
theorem exit_arr0 (c : Dev nD) (w : Fin cfg0.W) : (Dense0.dat (V3 m) c).arrAt w cfg0.N = V4 m c (Pipeline.arrRef spec0 w) :=
  (B4_arr m c w).symm
theorem exit_rest0 (c : Dev nD) : ∀ b, b ∉ Finset.univ.image (Pipeline.arrRef spec0) → V4 m c b = V3 m c b :=
  fun b hb => B4_of_ne m c b fun w e => hb (Finset.mem_image.mpr ⟨w, Finset.mem_univ _, e⟩)

/-- After the first gather / scatter-add / concatenate stretch: the first combine's entry. -/
abbrev B5 : Dev nD → Valuation τ sig (Elt F) := fun c => StableHlo.after hostOps1 (B4 m c)
abbrev V5 : (c : Dev nD) → (b : Ref sig .tc) → Buf (Elt F) ((c : Thread nD τ).loc b) := fun c b => B5 m c b

/-- After region 1: its arrays at what the pipeline leaves (an input as entered, an output its write-backs folded),
    every other buffer as entered. -/
def B6 (c : Dev nD) : Valuation τ sig (Elt F) :=
  Pipeline.withArrays spec1 c (B5 m c) fun w => (Combine1.dat (V5 m) c).arrAt w cfg1.N
theorem B6_arr (c : Dev nD) (w : Fin cfg1.W) :
    B6 m c (Proc.devRef .tc (Pipeline.arrRef spec1 w)) = (Combine1.dat (V5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
/-- The same read at the TensorCore's references. -/
abbrev V6 : (c : Dev nD) → (b : Ref sig .tc) → Buf (Elt F) ((c : Thread nD τ).loc b) := fun c b => B6 m c b
theorem exit_arr1 (c : Dev nD) (w : Fin cfg1.W) : (Combine1.dat (V5 m) c).arrAt w cfg1.N = V6 m c (Pipeline.arrRef spec1 w) :=
  (B6_arr m c w).symm
theorem exit_rest1 (c : Dev nD) : ∀ b, b ∉ Finset.univ.image (Pipeline.arrRef spec1) → V6 m c b = V5 m c b :=
  fun b hb => B6_of_ne m c b fun w e => hb (Finset.mem_image.mpr ⟨w, Finset.mem_univ _, e⟩)

/-- After the second such stretch: the second combine's entry. -/
abbrev B7 : Dev nD → Valuation τ sig (Elt F) := fun c => StableHlo.after hostOps2 (B6 m c)
abbrev V7 : (c : Dev nD) → (b : Ref sig .tc) → Buf (Elt F) ((c : Thread nD τ).loc b) := fun c b => B7 m c b

/-- After region 2: its arrays at what the pipeline leaves (an input as entered, an output its write-backs folded),
    every other buffer as entered. -/
def B8 (c : Dev nD) : Valuation τ sig (Elt F) :=
  Pipeline.withArrays spec2 c (B7 m c) fun w => (Combine2.dat (V7 m) c).arrAt w cfg2.N
theorem B8_arr (c : Dev nD) (w : Fin cfg2.W) :
    B8 m c (Proc.devRef .tc (Pipeline.arrRef spec2 w)) = (Combine2.dat (V7 m) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m c (Proc.devRef .tc b) = B7 m c (Proc.devRef .tc b) := by
  unfold B8; exact Pipeline.withArrays_of_ne spec2 c _ _ b hb
/-- The same read at the TensorCore's references. -/
abbrev V8 : (c : Dev nD) → (b : Ref sig .tc) → Buf (Elt F) ((c : Thread nD τ).loc b) := fun c b => B8 m c b
theorem exit_arr2 (c : Dev nD) (w : Fin cfg2.W) : (Combine2.dat (V7 m) c).arrAt w cfg2.N = V8 m c (Pipeline.arrRef spec2 w) :=
  (B8_arr m c w).symm
theorem exit_rest2 (c : Dev nD) : ∀ b, b ∉ Finset.univ.image (Pipeline.arrRef spec2) → V8 m c b = V7 m c b :=
  fun b hb => B8_of_ne m c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Dense0.dat (V3 m) c
  | ⟨1, _⟩ => fun c => Combine1.dat (V5 m) c
  | ⟨2, _⟩ => fun c => Combine2.dat (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (B8 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `B3`, left at `B4`. Its arrays are
    split out of the unscoped buffers and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dense0.body_obligation (V3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `B5`, left at `B6`. Its arrays are
    split out of the unscoped buffers and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Combine1.body_obligation (V5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (exit_arr1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `B7`, left at `B8`. Its arrays are
    split out of the unscoped buffers and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Combine2.body_obligation (V7 m) c).loose
  hwaits := Pipeline.hwaits_of_owed_zero _ _ _ _ L lv 2 fun _ _ => rfl
  pre c := iprop(StableHlo.held (c : Thread nD τ) (Pipeline.ucRefs τ sig) (B7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (exit_arr2 m c) (exit_rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .region (reg1 m),
    .host (hseg hostOps2 hostOps2_sub hostOps2_fresh (B6 m)),
    .region (reg2 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m c b)
    (hfin := fun c s' => by
      iintro ⟨⟨Hh, -⟩, HSI⟩
      unfold StableHlo.held
      imodintro
      iapply (pointsTo_read_all (Pipeline.ucRefs τ sig) (fun b => (((c : Thread nD τ)).1, b)) (B8 m c) s')
      isplitl [Hh] <;> iassumption)
    (hQ := fun s h => h)

end Cert.KernelIdeal.Whole

end
-- ==== Proof.KiEnds.lean ====
/-
  What the idealized kernel's run leaves, read off its last boundary: an argument array is written by no host
  operation and is at most an INPUT window of a region, so the fold of the boundaries' contents at an argument
  walks back to the launch memory; hence the frame claim. And the result buffer is the second combine region's
  first output array, so it ends at that pipeline's write-backs folded.
-/
import proofs.«123069_j50448685859076_1_alg».proof.Proof.KiRun

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## A region leaves the array of an input window as it found it -/

theorem B4_in (c : Dev nD) (w : Fin cfg0.W) (hin : (cfg0.win w).isOut = false) :
    B4 m c (Proc.devRef .tc (Pipeline.arrRef spec0 w)) = B3 m c (Proc.devRef .tc (Pipeline.arrRef spec0 w)) :=
  (B4_arr m c w).trans (((Dense0.dat (V3 m) c).arrAt_in w hin _).trans (Dense0.A_eq (V3 m) c w))
theorem B6_in (c : Dev nD) (w : Fin cfg1.W) (hin : (cfg1.win w).isOut = false) :
    B6 m c (Proc.devRef .tc (Pipeline.arrRef spec1 w)) = B5 m c (Proc.devRef .tc (Pipeline.arrRef spec1 w)) :=
  (B6_arr m c w).trans (((Combine1.dat (V5 m) c).arrAt_in w hin _).trans (Combine1.A_eq (V5 m) c w))
theorem B8_in (c : Dev nD) (w : Fin cfg2.W) (hin : (cfg2.win w).isOut = false) :
    B8 m c (Proc.devRef .tc (Pipeline.arrRef spec2 w)) = B7 m c (Proc.devRef .tc (Pipeline.arrRef spec2 w)) :=
  (B8_arr m c w).trans (((Combine2.dat (V7 m) c).arrAt_in w hin _).trans (Combine2.A_eq (V7 m) c w))

/-! ## Each argument ends as launched -/

theorem B8_main_arg0 (c : Dev nD) : B8 m c main_arg0 = m ((c : Thread nD τ).loc main_arg0) :=
  calc B8 m c (Proc.devRef .tc main_arg0)
    _ = B7 m c (Proc.devRef .tc main_arg0) := B8_of_ne m c main_arg0 (by decide)
    _ = B6 m c (Proc.devRef .tc main_arg0) := StableHlo.after_of_writes_sub hostOps2 _ hostOps2_writes (by decide)
    _ = B5 m c (Proc.devRef .tc main_arg0) := B6_of_ne m c main_arg0 (by decide)
    _ = B4 m c (Proc.devRef .tc main_arg0) := StableHlo.after_of_writes_sub hostOps1 _ hostOps1_writes (by decide)
    _ = B3 m c (Proc.devRef .tc main_arg0) := (B4_in m c 0 rfl)
    _ = B2 m c (Proc.devRef .tc main_arg0) := StableHlo.after_of_writes_sub hostOps0_2 _ hostOps0_2_writes (by decide)
    _ = B1 m c (Proc.devRef .tc main_arg0) := StableHlo.after_of_writes_sub hostOps0_1 _ hostOps0_1_writes (by decide)
    _ = B0 m c (Proc.devRef .tc main_arg0) := StableHlo.after_of_writes_sub hostOps0 _ hostOps0_writes (by decide)
    _ = m ((c : Thread nD τ).loc main_arg0) := rfl
theorem B8_main_arg1 (c : Dev nD) : B8 m c main_arg1 = m ((c : Thread nD τ).loc main_arg1) :=
  calc B8 m c (Proc.devRef .tc main_arg1)
    _ = B7 m c (Proc.devRef .tc main_arg1) := B8_of_ne m c main_arg1 (by decide)
    _ = B6 m c (Proc.devRef .tc main_arg1) := StableHlo.after_of_writes_sub hostOps2 _ hostOps2_writes (by decide)
    _ = B5 m c (Proc.devRef .tc main_arg1) := B6_of_ne m c main_arg1 (by decide)
    _ = B4 m c (Proc.devRef .tc main_arg1) := StableHlo.after_of_writes_sub hostOps1 _ hostOps1_writes (by decide)
    _ = B3 m c (Proc.devRef .tc main_arg1) := B4_of_ne m c main_arg1 (by decide)
    _ = B2 m c (Proc.devRef .tc main_arg1) := StableHlo.after_of_writes_sub hostOps0_2 _ hostOps0_2_writes (by decide)
    _ = B1 m c (Proc.devRef .tc main_arg1) := StableHlo.after_of_writes_sub hostOps0_1 _ hostOps0_1_writes (by decide)
    _ = B0 m c (Proc.devRef .tc main_arg1) := StableHlo.after_of_writes_sub hostOps0 _ hostOps0_writes (by decide)
    _ = m ((c : Thread nD τ).loc main_arg1) := rfl
theorem B8_main_arg2 (c : Dev nD) : B8 m c main_arg2 = m ((c : Thread nD τ).loc main_arg2) :=
  calc B8 m c (Proc.devRef .tc main_arg2)
    _ = B7 m c (Proc.devRef .tc main_arg2) := B8_of_ne m c main_arg2 (by decide)
    _ = B6 m c (Proc.devRef .tc main_arg2) := StableHlo.after_of_writes_sub hostOps2 _ hostOps2_writes (by decide)
    _ = B5 m c (Proc.devRef .tc main_arg2) := B6_of_ne m c main_arg2 (by decide)
    _ = B4 m c (Proc.devRef .tc main_arg2) := StableHlo.after_of_writes_sub hostOps1 _ hostOps1_writes (by decide)
    _ = B3 m c (Proc.devRef .tc main_arg2) := B4_of_ne m c main_arg2 (by decide)
    _ = B2 m c (Proc.devRef .tc main_arg2) := StableHlo.after_of_writes_sub hostOps0_2 _ hostOps0_2_writes (by decide)
    _ = B1 m c (Proc.devRef .tc main_arg2) := StableHlo.after_of_writes_sub hostOps0_1 _ hostOps0_1_writes (by decide)
    _ = B0 m c (Proc.devRef .tc main_arg2) := StableHlo.after_of_writes_sub hostOps0 _ hostOps0_writes (by decide)
    _ = m ((c : Thread nD τ).loc main_arg2) := rfl
theorem B8_main_arg3 (c : Dev nD) : B8 m c main_arg3 = m ((c : Thread nD τ).loc main_arg3) :=
  calc B8 m c (Proc.devRef .tc main_arg3)
    _ = B7 m c (Proc.devRef .tc main_arg3) := B8_of_ne m c main_arg3 (by decide)
    _ = B6 m c (Proc.devRef .tc main_arg3) := StableHlo.after_of_writes_sub hostOps2 _ hostOps2_writes (by decide)
    _ = B5 m c (Proc.devRef .tc main_arg3) := B6_of_ne m c main_arg3 (by decide)
    _ = B4 m c (Proc.devRef .tc main_arg3) := StableHlo.after_of_writes_sub hostOps1 _ hostOps1_writes (by decide)
    _ = B3 m c (Proc.devRef .tc main_arg3) := (B4_in m c 1 rfl)
    _ = B2 m c (Proc.devRef .tc main_arg3) := StableHlo.after_of_writes_sub hostOps0_2 _ hostOps0_2_writes (by decide)
    _ = B1 m c (Proc.devRef .tc main_arg3) := StableHlo.after_of_writes_sub hostOps0_1 _ hostOps0_1_writes (by decide)
    _ = B0 m c (Proc.devRef .tc main_arg3) := StableHlo.after_of_writes_sub hostOps0 _ hostOps0_writes (by decide)
    _ = m ((c : Thread nD τ).loc main_arg3) := rfl
theorem B8_main_arg4 (c : Dev nD) : B8 m c main_arg4 = m ((c : Thread nD τ).loc main_arg4) :=
  calc B8 m c (Proc.devRef .tc main_arg4)
    _ = B7 m c (Proc.devRef .tc main_arg4) := B8_of_ne m c main_arg4 (by decide)
    _ = B6 m c (Proc.devRef .tc main_arg4) := StableHlo.after_of_writes_sub hostOps2 _ hostOps2_writes (by decide)
    _ = B5 m c (Proc.devRef .tc main_arg4) := B6_of_ne m c main_arg4 (by decide)
    _ = B4 m c (Proc.devRef .tc main_arg4) := StableHlo.after_of_writes_sub hostOps1 _ hostOps1_writes (by decide)
    _ = B3 m c (Proc.devRef .tc main_arg4) := B4_of_ne m c main_arg4 (by decide)
    _ = B2 m c (Proc.devRef .tc main_arg4) := StableHlo.after_of_writes_sub hostOps0_2 _ hostOps0_2_writes (by decide)
    _ = B1 m c (Proc.devRef .tc main_arg4) := StableHlo.after_of_writes_sub hostOps0_1 _ hostOps0_1_writes (by decide)
    _ = B0 m c (Proc.devRef .tc main_arg4) := StableHlo.after_of_writes_sub hostOps0 _ hostOps0_writes (by decide)
    _ = m ((c : Thread nD τ).loc main_arg4) := rfl
theorem B8_main_arg5 (c : Dev nD) : B8 m c main_arg5 = m ((c : Thread nD τ).loc main_arg5) :=
  calc B8 m c (Proc.devRef .tc main_arg5)
    _ = B7 m c (Proc.devRef .tc main_arg5) := B8_of_ne m c main_arg5 (by decide)
    _ = B6 m c (Proc.devRef .tc main_arg5) := StableHlo.after_of_writes_sub hostOps2 _ hostOps2_writes (by decide)
    _ = B5 m c (Proc.devRef .tc main_arg5) := (B6_in m c 4 rfl)
    _ = B4 m c (Proc.devRef .tc main_arg5) := StableHlo.after_of_writes_sub hostOps1 _ hostOps1_writes (by decide)
    _ = B3 m c (Proc.devRef .tc main_arg5) := B4_of_ne m c main_arg5 (by decide)
    _ = B2 m c (Proc.devRef .tc main_arg5) := StableHlo.after_of_writes_sub hostOps0_2 _ hostOps0_2_writes (by decide)
    _ = B1 m c (Proc.devRef .tc main_arg5) := StableHlo.after_of_writes_sub hostOps0_1 _ hostOps0_1_writes (by decide)
    _ = B0 m c (Proc.devRef .tc main_arg5) := StableHlo.after_of_writes_sub hostOps0 _ hostOps0_writes (by decide)
    _ = m ((c : Thread nD τ).loc main_arg5) := rfl
theorem B8_main_arg6 (c : Dev nD) : B8 m c main_arg6 = m ((c : Thread nD τ).loc main_arg6) :=
  calc B8 m c (Proc.devRef .tc main_arg6)
    _ = B7 m c (Proc.devRef .tc main_arg6) := B8_of_ne m c main_arg6 (by decide)
    _ = B6 m c (Proc.devRef .tc main_arg6) := StableHlo.after_of_writes_sub hostOps2 _ hostOps2_writes (by decide)
    _ = B5 m c (Proc.devRef .tc main_arg6) := B6_of_ne m c main_arg6 (by decide)
    _ = B4 m c (Proc.devRef .tc main_arg6) := StableHlo.after_of_writes_sub hostOps1 _ hostOps1_writes (by decide)
    _ = B3 m c (Proc.devRef .tc main_arg6) := B4_of_ne m c main_arg6 (by decide)
    _ = B2 m c (Proc.devRef .tc main_arg6) := StableHlo.after_of_writes_sub hostOps0_2 _ hostOps0_2_writes (by decide)
    _ = B1 m c (Proc.devRef .tc main_arg6) := StableHlo.after_of_writes_sub hostOps0_1 _ hostOps0_1_writes (by decide)
    _ = B0 m c (Proc.devRef .tc main_arg6) := StableHlo.after_of_writes_sub hostOps0 _ hostOps0_writes (by decide)
    _ = m ((c : Thread nD τ).loc main_arg6) := rfl
theorem B8_main_arg7 (c : Dev nD) : B8 m c main_arg7 = m ((c : Thread nD τ).loc main_arg7) :=
  calc B8 m c (Proc.devRef .tc main_arg7)
    _ = B7 m c (Proc.devRef .tc main_arg7) := (B8_in m c 4 rfl)
    _ = B6 m c (Proc.devRef .tc main_arg7) := StableHlo.after_of_writes_sub hostOps2 _ hostOps2_writes (by decide)
    _ = B5 m c (Proc.devRef .tc main_arg7) := B6_of_ne m c main_arg7 (by decide)
    _ = B4 m c (Proc.devRef .tc main_arg7) := StableHlo.after_of_writes_sub hostOps1 _ hostOps1_writes (by decide)
    _ = B3 m c (Proc.devRef .tc main_arg7) := B4_of_ne m c main_arg7 (by decide)
    _ = B2 m c (Proc.devRef .tc main_arg7) := StableHlo.after_of_writes_sub hostOps0_2 _ hostOps0_2_writes (by decide)
    _ = B1 m c (Proc.devRef .tc main_arg7) := StableHlo.after_of_writes_sub hostOps0_1 _ hostOps0_1_writes (by decide)
    _ = B0 m c (Proc.devRef .tc main_arg7) := StableHlo.after_of_writes_sub hostOps0 _ hostOps0_writes (by decide)
    _ = m ((c : Thread nD τ).loc main_arg7) := rfl
theorem B8_main_arg8 (c : Dev nD) : B8 m c main_arg8 = m ((c : Thread nD τ).loc main_arg8) :=
  calc B8 m c (Proc.devRef .tc main_arg8)
    _ = B7 m c (Proc.devRef .tc main_arg8) := B8_of_ne m c main_arg8 (by decide)
    _ = B6 m c (Proc.devRef .tc main_arg8) := StableHlo.after_of_writes_sub hostOps2 _ hostOps2_writes (by decide)
    _ = B5 m c (Proc.devRef .tc main_arg8) := B6_of_ne m c main_arg8 (by decide)
    _ = B4 m c (Proc.devRef .tc main_arg8) := StableHlo.after_of_writes_sub hostOps1 _ hostOps1_writes (by decide)
    _ = B3 m c (Proc.devRef .tc main_arg8) := B4_of_ne m c main_arg8 (by decide)
    _ = B2 m c (Proc.devRef .tc main_arg8) := StableHlo.after_of_writes_sub hostOps0_2 _ hostOps0_2_writes (by decide)
    _ = B1 m c (Proc.devRef .tc main_arg8) := StableHlo.after_of_writes_sub hostOps0_1 _ hostOps0_1_writes (by decide)
    _ = B0 m c (Proc.devRef .tc main_arg8) := StableHlo.after_of_writes_sub hostOps0 _ hostOps0_writes (by decide)
    _ = m ((c : Thread nD τ).loc main_arg8) := rfl

/-! ## The frame -/

/-- Every weakly fair execution terminates, nothing faults, and the nine argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (B8_main_arg0 m c),
    (h c _ (mem_uc main_arg1 (by decide))).trans (B8_main_arg1 m c),
    (h c _ (mem_uc main_arg2 (by decide))).trans (B8_main_arg2 m c),
    (h c _ (mem_uc main_arg3 (by decide))).trans (B8_main_arg3 m c),
    (h c _ (mem_uc main_arg4 (by decide))).trans (B8_main_arg4 m c),
    (h c _ (mem_uc main_arg5 (by decide))).trans (B8_main_arg5 m c),
    (h c _ (mem_uc main_arg6 (by decide))).trans (B8_main_arg6 m c),
    (h c _ (mem_uc main_arg7 (by decide))).trans (B8_main_arg7 m c),
    (h c _ (mem_uc main_arg8 (by decide))).trans (B8_main_arg8 m c)⟩)
    (run_all m ρ)

/-! ## The result -/

/-- The run with the result buffer named: it ends at the second combine pipeline's first output array, the
    arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v37_0) = (Combine2.dat (V7 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v37_0 (by decide))).trans (B8_arr m c 6),
    (h c _ (mem_uc main_arg0 (by decide))).trans (B8_main_arg0 m c),
    (h c _ (mem_uc main_arg1 (by decide))).trans (B8_main_arg1 m c),
    (h c _ (mem_uc main_arg2 (by decide))).trans (B8_main_arg2 m c),
    (h c _ (mem_uc main_arg3 (by decide))).trans (B8_main_arg3 m c),
    (h c _ (mem_uc main_arg4 (by decide))).trans (B8_main_arg4 m c),
    (h c _ (mem_uc main_arg5 (by decide))).trans (B8_main_arg5 m c),
    (h c _ (mem_uc main_arg6 (by decide))).trans (B8_main_arg6 m c),
    (h c _ (mem_uc main_arg7 (by decide))).trans (B8_main_arg7 m c),
    (h c _ (mem_uc main_arg8 (by decide))).trans (B8_main_arg8 m c)⟩)
    (run_all m ρ)

end Cert.KernelIdeal.Whole

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KiValue0.lean ====
/-
  The dense layer's two output arrays after its 50 grid points, at the exact-real instance: each row block written
  back is that block of ONE whole-array function of the region's input arrays, and the blocks cover the array, so
  the `h0` array is `feat · W0ᵀ + b0` and the `m0` array is `h0` times the degree column, row by row — the
  reference's own two stages.
-/
import proofs.«123069_j50448685859076_1_alg».proof.Proof.KiBody0
import proofs.«123069_j50448685859076_1_alg».proof.Proof.Gen.ReferenceIdeal.Read
import proofs.«123069_j50448685859076_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Dense0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## The block product read at an entry

The contraction of the dense layer's block product pairs axis 1 of the left factor with axis 0 of the right one; the
other two axes are the result's. -/

theorem lhs_k0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at entry `(p, q)`: the sum over `k` of the left factor's `(p, k)` times
    the right factor's `(k, q)`. -/
theorem mm_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_k0_0 _ _
    | ⟨1, _⟩ => exact (lhs_k0_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_k0_0 _ _).trans hk
    | ⟨1, _⟩ => exact rhs_k0_1 _ _)
  rw [el, er]

/-- The `h0` block's payload at entry `(p, q)`: row `p` of the feature block against row `q` of `W0` (the transpose
    turns `W0`'s `(q, k)` into the right factor's `(k, q)`; the roundings are the identity on the extended reals), plus
    the bias row's entry `q`. -/
theorem pay1_apply (x0 : Vec Ideal S2000x128 .f32) (x1 : Vec Ideal S128x128 .f32) (x2 : Vec Ideal S1x128 .f32) (p : Fin 2000) (q : Fin 128) :
    k0_pay1 x0 x1 x2 (ix2 p q) = (∑ k : Fin 128, x0 (ix2 p k) * x1 (ix2 q k)) + x2 (ix2 (0 : Fin 1) q) := by
  unfold k0_pay1
  rw [addf_apply]
  refine congrArg₂ (· + ·) ?_ ?_
  · refine (mm_apply _ _ p q).trans ?_
    refine Finset.sum_congr rfl fun k _ => ?_
    refine congrArg₂ (· * ·) rfl ?_
    exact transpose_ix2_apply _ _ k q
  · rw [shapeCast_self]
    exact broadcastTo_1b_ab_apply _ _ p q

/-- The `m0` block's payload at entry `(p, q)`: the `h0` payload's entry times the degree column block's row `p`. -/
theorem pay2_apply (x0 : Vec Ideal S2000x128 .f32) (x1 : Vec Ideal S128x128 .f32) (x2 : Vec Ideal S1x128 .f32) (x3 : Vec Ideal S2000x1 .f32)
    (p : Fin 2000) (q : Fin 128) :
    k0_pay2 x0 x1 x2 x3 (ix2 p q)
      = ((∑ k : Fin 128, x0 (ix2 p k) * x1 (ix2 q k)) + x2 (ix2 (0 : Fin 1) q)) * x3 (ix2 p (0 : Fin 1)) := by
  unfold k0_pay2
  rw [mulf_apply, pay1_apply]
  refine congrArg₂ (· * ·) rfl ?_
  rw [shapeCast_self]
  exact Cert.LibKeepdims.broadcastTo_a1_ab_apply _ _ p q

/-! ## The reference's two stages read at an entry -/

/-- The reference's `x · W0ᵀ + b0` at entry `(r, q)`: row `r` of `x` against row `q` of `W0`, plus `b0`'s entry `q`. -/
theorem ref_h_apply (a0 : (⟨S100000x128, .f32⟩ : BufTy).Contents (Elt Ideal)) (a3 : (⟨S128x128, .f32⟩ : BufTy).Contents (Elt Ideal))
    (a4 : (⟨S128, .f32⟩ : BufTy).Contents (Elt Ideal)) (r : Fin 100000) (q : Fin 128) :
    Cert.ReferenceIdeal.Read.val_main_v14 (F := Ideal) a0 a3 a4 (ix2 r q)
      = (∑ k : Fin 128, a0 (ix2 r k) * a3 (ix2 q k)) + a4 (ix1 q) := by
  rw [Cert.ReferenceIdeal.Read.val_main_v14_apply, Cert.ReferenceIdeal.Read.val_main_v11_apply,
    Cert.ReferenceIdeal.Read.val_main_v13_apply, Cert.ReferenceIdeal.Read.val_main_v12_apply]
  have e12 : Cert.ReferenceIdeal.Read.idx_main_v12 (Cert.ReferenceIdeal.Read.idx_main_v13 (ix2 r q)) = ix1 q :=
    funext fun a => Fin.ext (by match a with | ⟨0, _⟩ => rfl)
  rw [e12]
  show _ + _ = _ + _
  refine congrArg₂ (· + ·) ?_ rfl
  refine Finset.sum_congr rfl fun k _ => ?_
  rw [Cert.ReferenceIdeal.Read.val_main_v10_apply]
  have el : Cert.ReferenceIdeal.Read.lidx_main_v11 (ix2 r q) k = ix2 r k :=
    funext fun a => Fin.ext (by match a with | ⟨0, _⟩ => rfl | ⟨1, _⟩ => rfl)
  have er : Cert.ReferenceIdeal.Read.idx_main_v10 (Cert.ReferenceIdeal.Read.ridx_main_v11 (ix2 r q) k) = ix2 q k :=
    funext fun a => Fin.ext (by match a with | ⟨0, _⟩ => rfl | ⟨1, _⟩ => rfl)
  rw [el, er]

/-- The reference's `h0 · norm` at entry `(r, q)`: `h0`'s entry times the degree column's row `r`. -/
theorem ref_m_apply (a0 : (⟨S100000x128, .f32⟩ : BufTy).Contents (Elt Ideal)) (a2 : (⟨S1600000, .i32⟩ : BufTy).Contents (Elt Ideal))
    (a3 : (⟨S128x128, .f32⟩ : BufTy).Contents (Elt Ideal)) (a4 : (⟨S128, .f32⟩ : BufTy).Contents (Elt Ideal)) (r : Fin 100000) (q : Fin 128) :
    Cert.ReferenceIdeal.Read.val_main_v16 (F := Ideal) a0 a2 a3 a4 (ix2 r q)
      = ((∑ k : Fin 128, a0 (ix2 r k) * a3 (ix2 q k)) + a4 (ix1 q)) * Cert.ReferenceIdeal.Read.val_main_v7 (F := Ideal) a2 (ix2 r (0 : Fin 1)) := by
  rw [Cert.ReferenceIdeal.Read.val_main_v16_apply, Cert.ReferenceIdeal.Read.val_main_v15_apply, ref_h_apply]
  have e15 : Cert.ReferenceIdeal.Read.idx_main_v15 (ix2 r q) = ix2 r (0 : Fin 1) :=
    funext fun a => Fin.ext (by match a with | ⟨0, _⟩ => rfl | ⟨1, _⟩ => rfl)
  rw [e15]
  rfl

/-! ## The windows' blocks as rows of their arrays -/

/-- The block index maps over the grid: the three row-blocked inputs and outputs sit at block row `t`, the weights
    and the bias row at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The feature block at point `t` is rows `2000 t …` of the feature array. -/
theorem blk0_apply (c : Dev nD) (t : Fin cfg0.N) (p : Fin 2000) (k : Fin 128) (r : Fin 100000) (hr : r.val = t.val * 2000 + p.val) :
    blk V c 0 t (ix2 p k) = (V c main_arg0 : S100000x128.Idx → Elt Ideal .f32) (ix2 r k) := by
  obtain ⟨e0, e1, -⟩ := idx_facts t
  unfold blk
  rw [View.read_apply]
  show (V c main_arg0 : S100000x128.Idx → Elt Ideal .f32) _ = _
  refine congrArg (V c main_arg0 : S100000x128.Idx → Elt Ideal .f32) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The weights' one block is the weight array. -/
theorem blk1_apply (c : Dev nD) (t : Fin cfg0.N) (q : Fin 128) (k : Fin 128) :
    blk V c 1 t (ix2 q k) = (V c main_arg3 : S128x128.Idx → Elt Ideal .f32) (ix2 q k) := by
  obtain ⟨-, -, e0, e1, -⟩ := idx_facts t
  unfold blk
  rw [View.read_apply]
  show (V c main_arg3 : S128x128.Idx → Elt Ideal .f32) _ = _
  refine congrArg (V c main_arg3 : S128x128.Idx → Elt Ideal .f32) (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

/-- The bias window's one block is the bias row. -/
theorem blk2_apply (c : Dev nD) (t : Fin cfg0.N) (q : Fin 128) :
    blk V c 2 t (ix2 (0 : Fin 1) q) = (V c main_v10 : S1x128.Idx → Elt Ideal .f32) (ix2 (0 : Fin 1) q) := by
  obtain ⟨-, -, -, -, e0, e1, -⟩ := idx_facts t
  unfold blk
  rw [View.read_apply]
  show (V c main_v10 : S1x128.Idx → Elt Ideal .f32) _ = _
  refine congrArg (V c main_v10 : S1x128.Idx → Elt Ideal .f32) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The degree column's block at point `t` is rows `2000 t …` of the column. -/
theorem blk3_apply (c : Dev nD) (t : Fin cfg0.N) (p : Fin 2000) (r : Fin 100000) (hr : r.val = t.val * 2000 + p.val) :
    blk V c 3 t (ix2 p (0 : Fin 1)) = (V c main_v7 : S100000x1.Idx → Elt Ideal .f32) (ix2 r (0 : Fin 1)) := by
  obtain ⟨-, -, -, -, -, -, e0, e1, -⟩ := idx_facts t
  unfold blk
  rw [View.read_apply]
  show (V c main_v7 : S100000x1.Idx → Elt Ideal .f32) _ = _
  refine congrArg (V c main_v7 : S100000x1.Idx → Elt Ideal .f32) (funext fun a => Fin.ext ?_)
  match a with
  | ⟨0, _⟩ => show win0_3.index t (0 : Fin 2) * 2000 + 1 * p.val = r.val; omega
  | ⟨1, _⟩ => show win0_3.index t (1 : Fin 2) * 1 + 1 * 0 = 0; omega

/-! ## What a point writes back -/

/-- Point `t` writes back, as the `h0` block, block `t` of any whole-array function `G` whose entry `(r, q)` is row `r` of
    the features against row `q` of the weights plus the bias's entry `q`. -/
theorem flushed_h (c : Dev nD) (a0 : S100000x128.Idx → Elt Ideal .f32) (a3 : S128x128.Idx → Elt Ideal .f32) (a4 : S128.Idx → Elt Ideal .f32)
    (G : S100000x128.Idx → Elt Ideal .f32)
    (h0 : V c main_arg0 = a0) (h3 : V c main_arg3 = a3) (hb : ∀ j : Fin 128, V c main_v10 (ix2 (0 : Fin 1) j) = a4 (ix1 j))
    (hG : ∀ (r : Fin 100000) (q : Fin 128), G (ix2 r q) = (∑ k : Fin 128, a0 (ix2 r k) * a3 (ix2 q k)) + a4 (ix1 q))
    (t : Fin cfg0.N) :
    (dat V c).flushed 4 t = ((cfg0.win 4).blk t).view.read (Elt Ideal) G := by
  show (cfg0.win 4).cut (grid0.coords t) ((dat V c).after 4 t) = _
  rw [after_4]
  unfold hOut
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, e0, e1, -⟩ := idx_facts t
  have hN : cfg0.N = 50 := N_0
  have ht := t.isLt
  have hp := p.isLt
  obtain ⟨r, hr⟩ : ∃ r : Fin 100000, r.val = t.val * 2000 + p.val := ⟨⟨t.val * 2000 + p.val, by omega⟩, rfl⟩
  show k0_pay1 (blk V c 0 t) (blk V c 1 t) (blk V c 2 t) (ix2 p q) = _
  rw [View.read_apply]
  have ei : ((cfg0.win 4).blk t).view.emb (ix2 p q) = (ix2 r q : S100000x128.Idx) := funext fun a => Fin.ext (by
    match a with
    | ⟨0, _⟩ => show win0_4.index t (0 : Fin 2) * 2000 + 1 * p.val = r.val; omega
    | ⟨1, _⟩ => show win0_4.index t (1 : Fin 2) * 128 + 1 * q.val = q.val; omega)
  refine Eq.trans ?_ (congrArg G ei).symm
  rw [hG, pay1_apply]
  refine congrArg₂ (· + ·) (Finset.sum_congr rfl fun k _ => ?_) ?_
  · rw [blk0_apply V c t p k r hr, blk1_apply V c t q k, h0, h3]
  · rw [blk2_apply V c t q]
    exact hb q

/-- Point `t` writes back, as the `m0` block, block `t` of any whole-array function `G` whose entry `(r, q)` is that same
    `h0` entry times the degree column's row `r`. -/
theorem flushed_m (c : Dev nD) (a0 : S100000x128.Idx → Elt Ideal .f32) (a3 : S128x128.Idx → Elt Ideal .f32) (a4 : S128.Idx → Elt Ideal .f32)
    (n : S100000x1.Idx → Elt Ideal .f32) (G : S100000x128.Idx → Elt Ideal .f32)
    (h0 : V c main_arg0 = a0) (h3 : V c main_arg3 = a3) (hb : ∀ j : Fin 128, V c main_v10 (ix2 (0 : Fin 1) j) = a4 (ix1 j))
    (hn : V c main_v7 = n)
    (hG : ∀ (r : Fin 100000) (q : Fin 128),
      G (ix2 r q) = ((∑ k : Fin 128, a0 (ix2 r k) * a3 (ix2 q k)) + a4 (ix1 q)) * n (ix2 r (0 : Fin 1)))
    (t : Fin cfg0.N) :
    (dat V c).flushed 5 t = ((cfg0.win 5).blk t).view.read (Elt Ideal) G := by
  show (cfg0.win 5).cut (grid0.coords t) ((dat V c).after 5 t) = _
  rw [after_5]
  unfold mOut
  rw [View.canon_unit_zero hz]
  simp only [View.ld_unit_zero (S := S2000x128) hz, View.ld_unit_zero (S := S128x128) hz, View.ld_unit_zero (S := S1x128) hz,
    View.ld_unit_zero (S := S2000x1) hz]
  funext j
  obtain ⟨p, q, rfl⟩ : ∃ (p : Fin 2000) (q : Fin 128), j = ix2 p q := ⟨j 0, j 1, eq_ix2 j⟩
  obtain ⟨-, -, -, -, -, -, -, -, -, -, e0, e1⟩ := idx_facts t
  have hN : cfg0.N = 50 := N_0
  have ht := t.isLt
  have hp := p.isLt
  obtain ⟨r, hr⟩ : ∃ r : Fin 100000, r.val = t.val * 2000 + p.val := ⟨⟨t.val * 2000 + p.val, by omega⟩, rfl⟩
  show k0_pay2 (blk V c 0 t) (blk V c 1 t) (blk V c 2 t) (blk V c 3 t) (ix2 p q) = _
  rw [View.read_apply]
  have ei : ((cfg0.win 5).blk t).view.emb (ix2 p q) = (ix2 r q : S100000x128.Idx) := funext fun a => Fin.ext (by
    match a with
    | ⟨0, _⟩ => show win0_5.index t (0 : Fin 2) * 2000 + 1 * p.val = r.val; omega
    | ⟨1, _⟩ => show win0_5.index t (1 : Fin 2) * 128 + 1 * q.val = q.val; omega)
  refine Eq.trans ?_ (congrArg G ei).symm
  rw [hG, pay2_apply]
  have e3 : blk V c 3 t (ix2 p (0 : Fin 1)) = n (ix2 r (0 : Fin 1)) := by rw [blk3_apply V c t p r hr, hn]
  have e2 : blk V c 2 t (ix2 (0 : Fin 1) q) = a4 (ix1 q) := (blk2_apply V c t q).trans (hb q)
  rw [e3, e2]
  refine congrArg (fun s => (s + a4 (ix1 q)) * n (ix2 r (0 : Fin 1))) (Finset.sum_congr rfl fun k _ => ?_)
  rw [blk0_apply V c t p k r hr, blk1_apply V c t q k, h0, h3]

/-! ## The blocks cover the arrays -/

/-- An index of the `h0` array is in point `t`'s block iff each coordinate is in the block's range on its axis. -/
theorem mem_blk4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v11_0).slice (win0_4.rect t)).set ↔ _
  rw [View.set_slice_whole, Rect.mem_set_unit]
  exact Iff.rfl

/-- Row `r` of the `h0` array is in the block of point `r / 2000`, which is written back. -/
theorem cover4 (i : S100000x128.Idx) : ∃ t : Fin cfg0.N, (cfg0.win 4).flush t = true ∧ i ∈ ((cfg0.win 4).blk t).view.set := by
  have hN : cfg0.N = 50 := N_0
  have hi0 : (i 0).val < 100000 := (i 0).isLt
  have hi1 : (i 1).val < 128 := (i 1).isLt
  obtain ⟨t, ht⟩ : ∃ t : Fin cfg0.N, t.val = (i 0).val / 2000 := ⟨⟨(i 0).val / 2000, by omega⟩, rfl⟩
  obtain ⟨-, -, -, -, -, -, -, -, e0, e1, -⟩ := idx_facts t
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- An index of the `m0` array is in point `t`'s block iff each coordinate is in the block's range on its axis. -/
theorem mem_blk5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v11_1).slice (win0_5.rect t)).set ↔ _
  rw [View.set_slice_whole, Rect.mem_set_unit]
  exact Iff.rfl

/-- Row `r` of the `m0` array is in the block of point `r / 2000`, which is written back. -/
theorem cover5 (i : S100000x128.Idx) : ∃ t : Fin cfg0.N, (cfg0.win 5).flush t = true ∧ i ∈ ((cfg0.win 5).blk t).view.set := by
  have hN : cfg0.N = 50 := N_0
  have hi0 : (i 0).val < 100000 := (i 0).isLt
  have hi1 : (i 1).val < 128 := (i 1).isLt
  obtain ⟨t, ht⟩ : ∃ t : Fin cfg0.N, t.val = (i 0).val / 2000 := ⟨⟨(i 0).val / 2000, by omega⟩, rfl⟩
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-! ## The two arrays after the region -/

/-- The `h0` array after the region is the reference's `x · W0ᵀ + b0` of the same arrays. -/
theorem h_array (c : Dev nD) (a0 : (⟨S100000x128, .f32⟩ : BufTy).Contents (Elt Ideal)) (a3 : (⟨S128x128, .f32⟩ : BufTy).Contents (Elt Ideal)) (a4 : (⟨S128, .f32⟩ : BufTy).Contents (Elt Ideal))
    (h0 : V c main_arg0 = a0) (h3 : V c main_arg3 = a3) (hb : ∀ j : Fin 128, V c main_v10 (ix2 (0 : Fin 1) j) = a4 (ix1 j)) :
    (dat V c).arrAt 4 cfg0.N = Cert.ReferenceIdeal.Read.val_main_v14 (F := Ideal) a0 a3 a4 := by
  have hG := ref_h_apply a0 a3 a4
  generalize Cert.ReferenceIdeal.Read.val_main_v14 (F := Ideal) a0 a3 a4 = G at hG ⊢
  exact (dat V c).arrAt_eq_of_cover 4 G (fun t _ => flushed_h V c a0 a3 a4 G h0 h3 hb hG t) cover4

/-- The `m0` array after the region is the reference's `h0 · norm`. -/
theorem m_array (c : Dev nD) (a0 : (⟨S100000x128, .f32⟩ : BufTy).Contents (Elt Ideal)) (a2 : (⟨S1600000, .i32⟩ : BufTy).Contents (Elt Ideal)) (a3 : (⟨S128x128, .f32⟩ : BufTy).Contents (Elt Ideal)) (a4 : (⟨S128, .f32⟩ : BufTy).Contents (Elt Ideal))
    (h0 : V c main_arg0 = a0) (h3 : V c main_arg3 = a3) (hb : ∀ j : Fin 128, V c main_v10 (ix2 (0 : Fin 1) j) = a4 (ix1 j))
    (hn : V c main_v7 = Cert.ReferenceIdeal.Read.val_main_v7 (F := Ideal) a2) :
    (dat V c).arrAt 5 cfg0.N = Cert.ReferenceIdeal.Read.val_main_v16 (F := Ideal) a0 a2 a3 a4 := by
  have hG := ref_m_apply a0 a2 a3 a4
  generalize Cert.ReferenceIdeal.Read.val_main_v16 (F := Ideal) a0 a2 a3 a4 = G at hG ⊢
  generalize Cert.ReferenceIdeal.Read.val_main_v7 (F := Ideal) a2 = n at hn hG
  exact (dat V c).arrAt_eq_of_cover 5 G (fun t _ => flushed_m V c a0 a3 a4 n G h0 h3 hb hn hG t) cover5

end Cert.KernelIdeal.Dense0

end
-- ==== Proof.KiValue1.lean ====
/-
  The first combine layer's two output arrays after its 50 grid points, at the exact-real instance: each row block
  written back is that block of ONE whole-array function of the region's input arrays, and the blocks cover the
  array, so the `h` array is `agg · norm + norm2 · (cat · Wᵀ + b)` and the `m` array is `h · norm`, row by row —
  the reference's own two stages.
-/
import proofs.«123069_j50448685859076_1_alg».proof.Proof.KiBody1
import proofs.«123069_j50448685859076_1_alg».proof.Proof.Gen.ReferenceIdeal.Read
import proofs.«123069_j50448685859076_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Combine1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The contraction of the block's matrix product, axis by axis. -/
theorem lhs_mm_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_mm_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_mm_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_mm_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The block's matrix product into the zero accumulator, read at `(p, q)`: row `p` of the left factor against
    column `q` of the right one. -/
theorem mm_apply (A : FVec Ideal S2000x256 .bf16) (B : FVec Ideal S256x128 .bf16) (p : Fin 2000) (q : Fin 128) :
    matmul dot_S2000x256_S256x128_S2000x128_1_0_0_1_n_n none A B (constant (F := Ideal) S2000x128 .f32 0x00000000#32) (ix2 p q)
      = ∑ k : Fin 256, A (ix2 p k) * B (ix2 k q) := by
  refine (Ideal.matmul_constant_zero_apply dot_S2000x256_S256x128_S2000x128_1_0_0_1_n_n none A B (ix2 p q)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_mm_0 _ _
    | ⟨1, _⟩ => exact (lhs_mm_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_mm_0 _ _).trans hk
    | ⟨1, _⟩ => exact rhs_mm_1 _ _)
  rw [el, er]

/-- The `h` payload read at `(p, q)`. -/
theorem pay1_apply (x0 : Vec Ideal S2000x256 .f32) (x3 : Vec Ideal S128x256 .f32) (x7 : Vec Ideal S1x128 .f32)
    (x11 : Vec Ideal S2000x128 .f32) (x13 x17 : Vec Ideal S2000x1 .f32) (p : Fin 2000) (q : Fin 128) :
    k1_pay1 x0 x3 x7 x11 x13 x17 (ix2 p q)
      = x11 (ix2 p q) * x13 (ix2 p (0 : Fin 1))
        + x17 (ix2 p (0 : Fin 1)) * ((∑ k : Fin 256, x0 (ix2 p k) * x3 (ix2 q k)) + x7 (ix2 (0 : Fin 1) q)) := by
  unfold k1_pay1
  simp only [shapeCast_self]
  rw [addf_apply, mulf_apply, mulf_apply, addf_apply]
  rw [Cert.LibKeepdims.broadcastTo_a1_ab_apply, Cert.LibKeepdims.broadcastTo_a1_ab_apply, broadcastTo_1b_ab_apply, mm_apply]
  refine congrArg (fun s => x11 (ix2 p q) * x13 (ix2 p (0 : Fin 1)) + x17 (ix2 p (0 : Fin 1)) * (s + x7 (ix2 (0 : Fin 1) q)))
    (Finset.sum_congr rfl fun k _ => ?_)
  exact congrArg (fun z => x0 (ix2 p k) * z) (transpose_ix2_apply (a := 128) (b := 256) _ _ k q)

/-- The `m` payload is the `h` payload times the degree column once more. -/
theorem pay2_apply (x0 : Vec Ideal S2000x256 .f32) (x3 : Vec Ideal S128x256 .f32) (x7 : Vec Ideal S1x128 .f32)
    (x11 : Vec Ideal S2000x128 .f32) (x13 x17 x23 : Vec Ideal S2000x1 .f32) (p : Fin 2000) (q : Fin 128) :
    k1_pay2 x0 x3 x7 x11 x13 x17 x23 (ix2 p q)
      = k1_pay1 x0 x3 x7 x11 x13 x17 (ix2 p q) * x23 (ix2 p (0 : Fin 1)) := by
  unfold k1_pay2
  simp only [shapeCast_self]
  rw [mulf_apply, Cert.LibKeepdims.broadcastTo_a1_ab_apply]

open Cert.ReferenceIdeal.Read in
/-- One element of the `h` block against the reference's stage at an array index `I`, given each input block's
    element as the reference's operand at the index the stage reads it at. -/
theorem h_point (B0 : Vec Ideal S2000x256 .f32) (B4 : Vec Ideal S128x256 .f32) (B5 : Vec Ideal S1x128 .f32)
    (B1 : Vec Ideal S2000x128 .f32) (B2 B3 : Vec Ideal S2000x1 .f32)
    (a0 : (⟨S100000x128, .f32⟩ : BufTy).Contents (Elt Ideal)) (a1 : (⟨S1600000, .i32⟩ : BufTy).Contents (Elt Ideal)) (a2 : (⟨S1600000, .i32⟩ : BufTy).Contents (Elt Ideal)) (a3 : (⟨S128x128, .f32⟩ : BufTy).Contents (Elt Ideal)) (a4 : (⟨S128, .f32⟩ : BufTy).Contents (Elt Ideal)) (a5 : (⟨S128x256, .f32⟩ : BufTy).Contents (Elt Ideal)) (a6 : (⟨S128, .f32⟩ : BufTy).Contents (Elt Ideal))
    (I : S100000x128.Idx) (p : Fin 2000) (q : Fin 128)
    (e1 : B1 (ix2 p q) = val_main_v26 (F := Ideal) a0 a1 a2 a3 a4 I)
    (e2 : B2 (ix2 p (0 : Fin 1)) = val_main_v7 (F := Ideal) a2 (idx_main_v28 I))
    (e3 : B3 (ix2 p (0 : Fin 1)) = val_main_v9 (F := Ideal) a2 (idx_main_v35 I))
    (e0 : ∀ k : Fin 256, B0 (ix2 p k) = val_main_v27 (F := Ideal) a0 a3 a4 (lidx_main_v31 I k))
    (e4 : ∀ k : Fin 256, B4 (ix2 q k) = a5 (idx_main_v30 (ridx_main_v31 I k)))
    (e5 : B5 (ix2 (0 : Fin 1) q) = a6 (idx_main_v32 (idx_main_v33 I))) :
    k1_pay1 B0 B4 B5 B1 B2 B3 (ix2 p q) = val_main_v37 (F := Ideal) a0 a1 a2 a3 a4 a5 a6 I := by
  rw [pay1_apply, e1, e2, e3, e5]
  simp only [e0, e4]
  rw [val_main_v37_apply, val_main_v29_apply, val_main_v28_apply, val_main_v36_apply, val_main_v35_apply, val_main_v34_apply,
    val_main_v31_apply, val_main_v33_apply, val_main_v32_apply]
  simp only [val_main_v30_apply]
  rfl

theorem hz : (![0, 0] : Fin 2 → Nat) = fun _ => 0 := funext fun a => by fin_cases a <;> rfl

/-- The windows' index maps over the grid: a row-blocked window's block at point `t` is block `(t, 0)`, a whole-array
    window's is `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

open Cert.ReferenceIdeal.Read in
/-- The six input blocks at point `t`, read where element `(p, q)` of an output block needs them, are the
    reference's operands at the indices its stage reads them at, for the array index `I = (2000 t + p, q)`. -/
theorem blocks_at (c : Dev nD) (a0 : (⟨S100000x128, .f32⟩ : BufTy).Contents (Elt Ideal)) (a1 : (⟨S1600000, .i32⟩ : BufTy).Contents (Elt Ideal)) (a2 : (⟨S1600000, .i32⟩ : BufTy).Contents (Elt Ideal)) (a3 : (⟨S128x128, .f32⟩ : BufTy).Contents (Elt Ideal)) (a4 : (⟨S128, .f32⟩ : BufTy).Contents (Elt Ideal)) (a5 : (⟨S128x256, .f32⟩ : BufTy).Contents (Elt Ideal)) (a6 : (⟨S128, .f32⟩ : BufTy).Contents (Elt Ideal))
    (hX : V c main_v22 = Cert.ReferenceIdeal.Read.val_main_v27 (F := Ideal) a0 a3 a4) (hG : V c main_v21 = Cert.ReferenceIdeal.Read.val_main_v26 (F := Ideal) a0 a1 a2 a3 a4)
    (hn : V c main_v7 = Cert.ReferenceIdeal.Read.val_main_v7 (F := Ideal) a2) (hn2 : V c main_v9 = Cert.ReferenceIdeal.Read.val_main_v9 (F := Ideal) a2)
    (hW : V c main_arg5 = a5) (hb : ∀ j : Fin 128, V c main_v23 (ix2 (0 : Fin 1) j) = a6 (ix1 j))
    (t : Fin cfg1.N) (p : Fin 2000) (q : Fin 128) (I : S100000x128.Idx) (h0 : (I 0).val = t.val * 2000 + p.val) (h1 : (I 1).val = q.val) :
    blk V c 1 t (ix2 p q) = val_main_v26 (F := Ideal) a0 a1 a2 a3 a4 I
    ∧ blk V c 2 t (ix2 p (0 : Fin 1)) = val_main_v7 (F := Ideal) a2 (idx_main_v28 I)
    ∧ blk V c 3 t (ix2 p (0 : Fin 1)) = val_main_v9 (F := Ideal) a2 (idx_main_v35 I)
    ∧ (∀ k : Fin 256, blk V c 0 t (ix2 p k) = val_main_v27 (F := Ideal) a0 a3 a4 (lidx_main_v31 I k))
    ∧ (∀ k : Fin 256, blk V c 4 t (ix2 q k) = a5 (idx_main_v30 (ridx_main_v31 I k)))
    ∧ blk V c 5 t (ix2 (0 : Fin 1) q) = a6 (idx_main_v32 (idx_main_v33 I)) := by
  obtain ⟨⟨f00, f01⟩, ⟨f10, f11⟩, ⟨f20, f21⟩, ⟨f30, f31⟩, ⟨f40, f41⟩, ⟨f50, f51⟩, -, -⟩ := idx_facts t
  refine ⟨?e1, ?e2, ?e3, ?e0, ?e4, ?e5⟩
  case e1 =>
    show V c main_v21 (((cfg1.win 1).blk t).view.emb (ix2 p q)) = _
    rw [hG]
    refine congrArg _ (funext fun a => Fin.ext ?_)
    match a with
    | ⟨0, _⟩ => show win1_1.index t (0 : Fin 2) * 2000 + 1 * p.val = (I 0).val; rw [f10, h0]; omega
    | ⟨1, _⟩ => show win1_1.index t (1 : Fin 2) * 128 + 1 * q.val = (I 1).val; rw [f11, h1]; omega
  case e2 =>
    show V c main_v7 (((cfg1.win 2).blk t).view.emb (ix2 p (0 : Fin 1))) = _
    rw [hn]
    refine congrArg _ (funext fun a => Fin.ext ?_)
    match a with
    | ⟨0, _⟩ => show win1_2.index t (0 : Fin 2) * 2000 + 1 * p.val = (I 0).val; rw [f20, h0]; omega
    | ⟨1, _⟩ => show win1_2.index t (1 : Fin 2) * 1 + 1 * ((0 : Fin 1) : Nat) = 0; rw [f21]; rfl
  case e3 =>
    show V c main_v9 (((cfg1.win 3).blk t).view.emb (ix2 p (0 : Fin 1))) = _
    rw [hn2]
    refine congrArg _ (funext fun a => Fin.ext ?_)
    match a with
    | ⟨0, _⟩ => show win1_3.index t (0 : Fin 2) * 2000 + 1 * p.val = (I 0).val; rw [f30, h0]; omega
    | ⟨1, _⟩ => show win1_3.index t (1 : Fin 2) * 1 + 1 * ((0 : Fin 1) : Nat) = 0; rw [f31]; rfl
  case e0 =>
    intro k
    show V c main_v22 (((cfg1.win 0).blk t).view.emb (ix2 p k)) = _
    rw [hX]
    refine congrArg _ (funext fun a => Fin.ext ?_)
    match a with
    | ⟨0, _⟩ => show win1_0.index t (0 : Fin 2) * 2000 + 1 * p.val = (I 0).val; rw [f00, h0]; omega
    | ⟨1, _⟩ => show win1_0.index t (1 : Fin 2) * 256 + 1 * k.val = k.val; rw [f01]; omega
  case e4 =>
    intro k
    show V c main_arg5 (((cfg1.win 4).blk t).view.emb (ix2 q k)) = _
    rw [hW]
    refine congrArg _ (funext fun a => Fin.ext ?_)
    match a with
    | ⟨0, _⟩ => show win1_4.index t (0 : Fin 2) * 128 + 1 * q.val = (I 1).val; rw [f40, h1]; omega
    | ⟨1, _⟩ => show win1_4.index t (1 : Fin 2) * 256 + 1 * k.val = k.val; rw [f41]; omega
  case e5 =>
    show V c main_v23 (((cfg1.win 5).blk t).view.emb (ix2 (0 : Fin 1) q)) = _
    have h5 : ((cfg1.win 5).blk t).view.emb (ix2 (0 : Fin 1) q) = ix2 (0 : Fin 1) q := funext fun a => Fin.ext (by
      match a with
      | ⟨0, _⟩ => show win1_5.index t (0 : Fin 2) * 1 + 1 * ((0 : Fin 1) : Nat) = 0; rw [f50]; rfl
      | ⟨1, _⟩ => show win1_5.index t (1 : Fin 2) * 128 + 1 * q.val = q.val; rw [f51]; omega)
    refine (congrArg (V c main_v23) h5).trans ((hb q).trans (congrArg a6 (funext fun a => Fin.ext ?_)))
    match a with
    | ⟨0, _⟩ => show q.val = (I 1).val; exact h1.symm

/-- What point `t` writes back to the `h` array is block `t` of any whole-array function `G` that the block's payload
    computes element by element: element `(p, q)` of the block is `G` at row `2000 t + p`, column `q`. -/
theorem h_flushed_of (c : Dev nD) (G : S100000x128.Idx → Elt Ideal .f32) (t : Fin cfg1.N)
    (hG : ∀ (p : Fin 2000) (q : Fin 128) (I : S100000x128.Idx), (I 0).val = t.val * 2000 + p.val → (I 1).val = q.val →
      k1_pay1 (blk V c 0 t) (blk V c 4 t) (blk V c 5 t) (blk V c 1 t) (blk V c 2 t) (blk V c 3 t) (ix2 p q) = G I) :
    (dat V c).flushed 6 t = ((cfg1.win 6).blk t).view.read (Elt Ideal) G := by
  show (cfg1.win 6).cut (grid1.coords t) ((dat V c).after 6 t) = _
  rw [after_6]
  unfold hOut
  rw [View.canon_unit_zero hz]
  simp only [View.ld_unit_zero (S := S2000x256) hz, View.ld_unit_zero (S := S2000x128) hz, View.ld_unit_zero (S := S2000x1) hz,
    View.ld_unit_zero (S := S128x256) hz, View.ld_unit_zero (S := S1x128) hz]
  generalize hP : k1_pay1 (blk V c 0 t) (blk V c 4 t) (blk V c 5 t) (blk V c 1 t) (blk V c 2 t) (blk V c 3 t) = P at hG
  funext j
  obtain ⟨p, q, rfl⟩ : ∃ (p : Fin 2000) (q : Fin 128), j = ix2 p q := ⟨j 0, j 1, eq_ix2 j⟩
  obtain ⟨-, -, -, -, -, -, ⟨f60, f61⟩, -⟩ := idx_facts t
  show P (ix2 p q) = G (((cfg1.win 6).blk t).view.emb (ix2 p q))
  refine hG p q _ ?_ ?_
  · show win1_6.index t (0 : Fin 2) * 2000 + 1 * p.val = _; rw [f60]; omega
  · show win1_6.index t (1 : Fin 2) * 128 + 1 * q.val = _; rw [f61]; omega
/-- An index of the `h` array is in point `t`'s block iff each coordinate is in the block's range on its axis. -/
theorem mem_blk6 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v24_0).slice (win1_6.rect t)).set ↔ _
  rw [View.set_slice_whole, Rect.mem_set_unit]
  exact Iff.rfl

/-- Row `r` of the `h` array lies in the block of point `r / 2000`, which is written back. -/
theorem cover6 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, ⟨f60, f61⟩, -⟩ := idx_facts ⟨(i 0).val / 2000, ht⟩
  refine ⟨⟨(i 0).val / 2000, ht⟩, flush1_6 _, ?_⟩
  rw [mem_blk6]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [f60]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [f61]; omega

open Cert.ReferenceIdeal.Read in
/-- One element of the `m` block against the reference's `h · norm` at an array index `I`. -/
theorem m_point (B0 : Vec Ideal S2000x256 .f32) (B4 : Vec Ideal S128x256 .f32) (B5 : Vec Ideal S1x128 .f32)
    (B1 : Vec Ideal S2000x128 .f32) (B2 B3 : Vec Ideal S2000x1 .f32)
    (a0 : (⟨S100000x128, .f32⟩ : BufTy).Contents (Elt Ideal)) (a1 : (⟨S1600000, .i32⟩ : BufTy).Contents (Elt Ideal)) (a2 : (⟨S1600000, .i32⟩ : BufTy).Contents (Elt Ideal)) (a3 : (⟨S128x128, .f32⟩ : BufTy).Contents (Elt Ideal)) (a4 : (⟨S128, .f32⟩ : BufTy).Contents (Elt Ideal)) (a5 : (⟨S128x256, .f32⟩ : BufTy).Contents (Elt Ideal)) (a6 : (⟨S128, .f32⟩ : BufTy).Contents (Elt Ideal))
    (I : S100000x128.Idx) (p : Fin 2000) (q : Fin 128)
    (e1 : B1 (ix2 p q) = val_main_v26 (F := Ideal) a0 a1 a2 a3 a4 I)
    (e2 : B2 (ix2 p (0 : Fin 1)) = val_main_v7 (F := Ideal) a2 (idx_main_v28 I))
    (e3 : B3 (ix2 p (0 : Fin 1)) = val_main_v9 (F := Ideal) a2 (idx_main_v35 I))
    (e0 : ∀ k : Fin 256, B0 (ix2 p k) = val_main_v27 (F := Ideal) a0 a3 a4 (lidx_main_v31 I k))
    (e4 : ∀ k : Fin 256, B4 (ix2 q k) = a5 (idx_main_v30 (ridx_main_v31 I k)))
    (e5 : B5 (ix2 (0 : Fin 1) q) = a6 (idx_main_v32 (idx_main_v33 I))) :
    k1_pay2 B0 B4 B5 B1 B2 B3 B2 (ix2 p q) = val_main_v39 (F := Ideal) a0 a1 a2 a3 a4 a5 a6 I := by
  rw [pay2_apply, h_point B0 B4 B5 B1 B2 B3 a0 a1 a2 a3 a4 a5 a6 I p q e1 e2 e3 e0 e4 e5, e2, val_main_v39_apply, val_main_v38_apply]
  rfl

/-- What point `t` writes back to the `m` array is block `t` of any whole-array function `G` that the block's payload
    computes element by element. -/
theorem m_flushed_of (c : Dev nD) (G : S100000x128.Idx → Elt Ideal .f32) (t : Fin cfg1.N)
    (hG : ∀ (p : Fin 2000) (q : Fin 128) (I : S100000x128.Idx), (I 0).val = t.val * 2000 + p.val → (I 1).val = q.val →
      k1_pay2 (blk V c 0 t) (blk V c 4 t) (blk V c 5 t) (blk V c 1 t) (blk V c 2 t) (blk V c 3 t) (blk V c 2 t) (ix2 p q) = G I) :
    (dat V c).flushed 7 t = ((cfg1.win 7).blk t).view.read (Elt Ideal) G := by
  show (cfg1.win 7).cut (grid1.coords t) ((dat V c).after 7 t) = _
  rw [after_7]
  unfold mOut
  rw [View.canon_unit_zero hz]
  simp only [View.ld_unit_zero (S := S2000x256) hz, View.ld_unit_zero (S := S2000x128) hz, View.ld_unit_zero (S := S2000x1) hz,
    View.ld_unit_zero (S := S128x256) hz, View.ld_unit_zero (S := S1x128) hz]
  generalize hP : k1_pay2 (blk V c 0 t) (blk V c 4 t) (blk V c 5 t) (blk V c 1 t) (blk V c 2 t) (blk V c 3 t) (blk V c 2 t) = P at hG
  funext j
  obtain ⟨p, q, rfl⟩ : ∃ (p : Fin 2000) (q : Fin 128), j = ix2 p q := ⟨j 0, j 1, eq_ix2 j⟩
  obtain ⟨-, -, -, -, -, -, -, ⟨f70, f71⟩⟩ := idx_facts t
  show P (ix2 p q) = G (((cfg1.win 7).blk t).view.emb (ix2 p q))
  refine hG p q _ ?_ ?_
  · show win1_7.index t (0 : Fin 2) * 2000 + 1 * p.val = _; rw [f70]; omega
  · show win1_7.index t (1 : Fin 2) * 128 + 1 * q.val = _; rw [f71]; omega
/-- An index of the `m` array is in point `t`'s block iff each coordinate is in the block's range on its axis. -/
theorem mem_blk7 (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v24_1).slice (win1_7.rect t)).set ↔ _
  rw [View.set_slice_whole, Rect.mem_set_unit]
  exact Iff.rfl

/-- Row `r` of the `m` array lies in the block of point `r / 2000`, which is written back. -/
theorem cover7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, ⟨f70, f71⟩⟩ := idx_facts ⟨(i 0).val / 2000, ht⟩
  refine ⟨⟨(i 0).val / 2000, ht⟩, flush1_7 _, ?_⟩
  rw [mem_blk7]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [f70]; show (i 0).val / 2000 * 2000 ≤ (i 0).val ∧ (i 0).val < (i 0).val / 2000 * 2000 + 2000; omega
  | ⟨1, _⟩ =>
    show win1_7.index ⟨(i 0).val / 2000, ht⟩ (1 : Fin 2) * 128 ≤ (i 1).val ∧ (i 1).val < win1_7.index ⟨(i 0).val / 2000, ht⟩ (1 : Fin 2) * 128 + 128
    rw [f71]; omega

/-- The `h` array after the region is the reference's first combine stage of the same arrays. -/
theorem h_array (c : Dev nD) (a0 : (⟨S100000x128, .f32⟩ : BufTy).Contents (Elt Ideal)) (a1 : (⟨S1600000, .i32⟩ : BufTy).Contents (Elt Ideal)) (a2 : (⟨S1600000, .i32⟩ : BufTy).Contents (Elt Ideal)) (a3 : (⟨S128x128, .f32⟩ : BufTy).Contents (Elt Ideal)) (a4 : (⟨S128, .f32⟩ : BufTy).Contents (Elt Ideal)) (a5 : (⟨S128x256, .f32⟩ : BufTy).Contents (Elt Ideal)) (a6 : (⟨S128, .f32⟩ : BufTy).Contents (Elt Ideal))
    (hX : V c main_v22 = Cert.ReferenceIdeal.Read.val_main_v27 (F := Ideal) a0 a3 a4) (hG : V c main_v21 = Cert.ReferenceIdeal.Read.val_main_v26 (F := Ideal) a0 a1 a2 a3 a4)
    (hn : V c main_v7 = Cert.ReferenceIdeal.Read.val_main_v7 (F := Ideal) a2) (hn2 : V c main_v9 = Cert.ReferenceIdeal.Read.val_main_v9 (F := Ideal) a2)
    (hW : V c main_arg5 = a5) (hb : ∀ j : Fin 128, V c main_v23 (ix2 (0 : Fin 1) j) = a6 (ix1 j)) :
    (dat V c).arrAt 6 cfg1.N = Cert.ReferenceIdeal.Read.val_main_v37 (F := Ideal) a0 a1 a2 a3 a4 a5 a6 := by
  generalize hR : Cert.ReferenceIdeal.Read.val_main_v37 (F := Ideal) a0 a1 a2 a3 a4 a5 a6 = R
  refine (dat V c).arrAt_eq_of_cover 6 R (fun t _ => h_flushed_of V c R t fun p q I h0 h1 => ?_) cover6
  obtain ⟨e1, e2, e3, e0, e4, e5⟩ := blocks_at V c a0 a1 a2 a3 a4 a5 a6 hX hG hn hn2 hW hb t p q I h0 h1
  rw [← hR]
  exact h_point _ _ _ _ _ _ a0 a1 a2 a3 a4 a5 a6 I p q e1 e2 e3 e0 e4 e5

/-- The `m` array after the region is the reference's `h · norm`. -/
theorem m_array (c : Dev nD) (a0 : (⟨S100000x128, .f32⟩ : BufTy).Contents (Elt Ideal)) (a1 : (⟨S1600000, .i32⟩ : BufTy).Contents (Elt Ideal)) (a2 : (⟨S1600000, .i32⟩ : BufTy).Contents (Elt Ideal)) (a3 : (⟨S128x128, .f32⟩ : BufTy).Contents (Elt Ideal)) (a4 : (⟨S128, .f32⟩ : BufTy).Contents (Elt Ideal)) (a5 : (⟨S128x256, .f32⟩ : BufTy).Contents (Elt Ideal)) (a6 : (⟨S128, .f32⟩ : BufTy).Contents (Elt Ideal))
    (hX : V c main_v22 = Cert.ReferenceIdeal.Read.val_main_v27 (F := Ideal) a0 a3 a4) (hG : V c main_v21 = Cert.ReferenceIdeal.Read.val_main_v26 (F := Ideal) a0 a1 a2 a3 a4)
    (hn : V c main_v7 = Cert.ReferenceIdeal.Read.val_main_v7 (F := Ideal) a2) (hn2 : V c main_v9 = Cert.ReferenceIdeal.Read.val_main_v9 (F := Ideal) a2)
    (hW : V c main_arg5 = a5) (hb : ∀ j : Fin 128, V c main_v23 (ix2 (0 : Fin 1) j) = a6 (ix1 j)) :
    (dat V c).arrAt 7 cfg1.N = Cert.ReferenceIdeal.Read.val_main_v39 (F := Ideal) a0 a1 a2 a3 a4 a5 a6 := by
  generalize hR : Cert.ReferenceIdeal.Read.val_main_v39 (F := Ideal) a0 a1 a2 a3 a4 a5 a6 = R
  refine (dat V c).arrAt_eq_of_cover 7 R (fun t _ => m_flushed_of V c R t fun p q I h0 h1 => ?_) cover7
  obtain ⟨e1, e2, e3, e0, e4, e5⟩ := blocks_at V c a0 a1 a2 a3 a4 a5 a6 hX hG hn hn2 hW hb t p q I h0 h1
  rw [← hR]
  exact m_point _ _ _ _ _ _ a0 a1 a2 a3 a4 a5 a6 I p q e1 e2 e3 e0 e4 e5

end Cert.KernelIdeal.Combine1

end
-- ==== Proof.KiValue2.lean ====
/-
  The second combine layer's `h` array after its 50 grid points, at the exact-real instance: each row block written
  back is that block of ONE whole-array function of the region's input arrays, and the blocks cover the array, so
  the array is `agg · norm + norm2 · (cat · Wᵀ + b)` row by row — the reference's last stage, its result.
-/
import proofs.«123069_j50448685859076_1_alg».proof.Proof.KiBody2
import proofs.«123069_j50448685859076_1_alg».proof.Proof.Gen.ReferenceIdeal.Read
import proofs.«123069_j50448685859076_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Combine2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The input windows' blocks as rows of their arrays -/

/-- The printed index maps, decided once over the grid: a row-blocked window's block at point t is block (t, 0), a whole-array window's is block (0, 0). -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The concatenated features' block at point t holds rows 2000 t … 2000 t + 1999 of their array. -/
private theorem blk0_apply (c : Dev nD) (t : Fin cfg2.N) (p : Fin 2000) (k : Fin 384) (r : Fin 100000) (hr : r.val = t.val * 2000 + p.val) :
    (blk V c 0 t : Vec Ideal S2000x384 .f32) (ix2 p k) = (V c main_v35 : S100000x384.Idx → Elt Ideal .f32) (ix2 r k) := by
  obtain ⟨e0, e1, -⟩ := idx_facts t
  unfold blk
  rw [View.read_apply]
  show V c main_v35 _ = V c main_v35 _
  refine congrArg (V c main_v35) (funext fun a => Fin.ext ?_)
  match a with
  | ⟨0, _⟩ => show win2_0.index t (0 : Fin 2) * 2000 + 1 * p.val = r.val; rw [e0, hr]; omega
  | ⟨1, _⟩ => show win2_0.index t (1 : Fin 2) * 384 + 1 * k.val = k.val; rw [e1]; omega

/-- The aggregated messages' block at point t holds the same rows of their array. -/
private theorem blk1_apply (c : Dev nD) (t : Fin cfg2.N) (p : Fin 2000) (q : Fin 128) (r : Fin 100000) (hr : r.val = t.val * 2000 + p.val) :
    (blk V c 1 t : Vec Ideal S2000x128 .f32) (ix2 p q) = (V c main_v34 : S100000x128.Idx → Elt Ideal .f32) (ix2 r q) := by
  obtain ⟨-, -, e0, e1, -⟩ := idx_facts t
  unfold blk
  rw [View.read_apply]
  show V c main_v34 _ = V c main_v34 _
  refine congrArg (V c main_v34) (funext fun a => Fin.ext ?_)
  match a with
  | ⟨0, _⟩ => show win2_1.index t (0 : Fin 2) * 2000 + 1 * p.val = r.val; rw [e0, hr]; omega
  | ⟨1, _⟩ => show win2_1.index t (1 : Fin 2) * 128 + 1 * q.val = q.val; rw [e1]; omega

/-- The first degree column's block at point t holds the same rows of the column. -/
private theorem blk2_apply (c : Dev nD) (t : Fin cfg2.N) (p : Fin 2000) (u : Fin 1) (r : Fin 100000) (hr : r.val = t.val * 2000 + p.val) :
    (blk V c 2 t : Vec Ideal S2000x1 .f32) (ix2 p u) = (V c main_v7 : S100000x1.Idx → Elt Ideal .f32) (ix2 r u) := by
  obtain ⟨-, -, -, -, e0, e1, -⟩ := idx_facts t
  unfold blk
  rw [View.read_apply]
  show V c main_v7 _ = V c main_v7 _
  refine congrArg (V c main_v7) (funext fun a => Fin.ext ?_)
  match a with
  | ⟨0, _⟩ => show win2_2.index t (0 : Fin 2) * 2000 + 1 * p.val = r.val; rw [e0, hr]; omega
  | ⟨1, _⟩ => show win2_2.index t (1 : Fin 2) * 1 + 1 * u.val = u.val; rw [e1]; omega

/-- The second degree column's block at point t holds the same rows of the column. -/
private theorem blk3_apply (c : Dev nD) (t : Fin cfg2.N) (p : Fin 2000) (u : Fin 1) (r : Fin 100000) (hr : r.val = t.val * 2000 + p.val) :
    (blk V c 3 t : Vec Ideal S2000x1 .f32) (ix2 p u) = (V c main_v9 : S100000x1.Idx → Elt Ideal .f32) (ix2 r u) := by
  obtain ⟨-, -, -, -, -, -, e0, e1, -⟩ := idx_facts t
  unfold blk
  rw [View.read_apply]
  show V c main_v9 _ = V c main_v9 _
  refine congrArg (V c main_v9) (funext fun a => Fin.ext ?_)
  match a with
  | ⟨0, _⟩ => show win2_3.index t (0 : Fin 2) * 2000 + 1 * p.val = r.val; rw [e0, hr]; omega
  | ⟨1, _⟩ => show win2_3.index t (1 : Fin 2) * 1 + 1 * u.val = u.val; rw [e1]; omega

/-- The weights' block at every point is the whole weight matrix. -/
private theorem blk4_apply (c : Dev nD) (t : Fin cfg2.N) (q : Fin 128) (k : Fin 384) :
    (blk V c 4 t : Vec Ideal S128x384 .f32) (ix2 q k) = (V c main_arg7 : S128x384.Idx → Elt Ideal .f32) (ix2 q k) := by
  obtain ⟨-, -, -, -, -, -, -, -, e0, e1, -⟩ := idx_facts t
  unfold blk
  rw [View.read_apply]
  show V c main_arg7 _ = V c main_arg7 _
  refine congrArg (V c main_arg7) (funext fun a => Fin.ext ?_)
  match a with
  | ⟨0, _⟩ => show win2_4.index t (0 : Fin 2) * 128 + 1 * q.val = q.val; rw [e0]; omega
  | ⟨1, _⟩ => show win2_4.index t (1 : Fin 2) * 384 + 1 * k.val = k.val; rw [e1]; omega

/-- The bias row's block at every point is the whole row. -/
private theorem blk5_apply (c : Dev nD) (t : Fin cfg2.N) (u : Fin 1) (q : Fin 128) :
    (blk V c 5 t : Vec Ideal S1x128 .f32) (ix2 u q) = (V c main_v36 : S1x128.Idx → Elt Ideal .f32) (ix2 u q) := by
  obtain ⟨-, -, -, -, -, -, -, -, -, -, e0, e1, -⟩ := idx_facts t
  unfold blk
  rw [View.read_apply]
  show V c main_v36 _ = V c main_v36 _
  refine congrArg (V c main_v36) (funext fun a => Fin.ext ?_)
  match a with
  | ⟨0, _⟩ => show win2_5.index t (0 : Fin 2) * 1 + 1 * u.val = u.val; rw [e0]; omega
  | ⟨1, _⟩ => show win2_5.index t (1 : Fin 2) * 128 + 1 * q.val = q.val; rw [e1]; omega

/-! ## The block's matrix product read at an index

The product's dimension numbers contract the left factor's second axis with the right factor's first: at output index
`(p, q)` and contraction index `k` the left operand is read at `(p, k)` and the right one at `(k, q)`, axis by axis. -/

private theorem lhs_mm_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
private theorem lhs_mm_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
private theorem rhs_mm_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
private theorem rhs_mm_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The block's matrix product into the zero accumulator, read at row p and column q: the row of the left factor against the column of the right one. -/
private theorem mm_apply (l : FVec Ideal S2000x384 .bf16) (r : FVec Ideal S384x128 .bf16) (p : Fin 2000) (q : Fin 128) :
    matmul dot_S2000x384_S384x128_S2000x128_1_0_0_1_n_n none l r (constant (F := Ideal) S2000x128 .f32 0x00000000#32) (ix2 p q)
      = ∑ k : Fin 384, l (ix2 p k) * r (ix2 k q) := by
  simp only [matmul]
  rw [Ideal.matmul_constant_zero_apply, ← Equiv.sum_comp (contrEquiv1 dot_S2000x384_S384x128_S2000x128_1_0_0_1_n_n 384 rfl rfl).symm]
  refine Finset.sum_congr rfl fun k _ => ?_
  have hk := contrEquiv1_symm_val dot_S2000x384_S384x128_S2000x128_1_0_0_1_n_n 384 rfl rfl k
  have el : dot_S2000x384_S384x128_S2000x128_1_0_0_1_n_n.lhsIdx (ix2 p q) ((contrEquiv1 dot_S2000x384_S384x128_S2000x128_1_0_0_1_n_n 384 rfl rfl).symm k) = ix2 p k := funext fun a => Fin.ext (by
    match a with
    | ⟨0, _⟩ => exact lhs_mm_0 _ _
    | ⟨1, _⟩ => exact (lhs_mm_1 _ _).trans hk)
  have er : dot_S2000x384_S384x128_S2000x128_1_0_0_1_n_n.rhsIdx (ix2 p q) ((contrEquiv1 dot_S2000x384_S384x128_S2000x128_1_0_0_1_n_n 384 rfl rfl).symm k) = ix2 k q := funext fun a => Fin.ext (by
    match a with
    | ⟨0, _⟩ => exact (rhs_mm_0 _ _).trans hk
    | ⟨1, _⟩ => exact rhs_mm_1 _ _)
  rw [el, er]

/-! ## The body's payload read at an index -/

/-- The weights, rounded to nothing at the exact reals and transposed, read at (k, q): the weights at (q, k). -/
private theorem wT_apply (x4 : FVec Ideal S128x384 .f32) (k : Fin 384) (q : Fin 128) :
    (transpose S384x128 [1, 0] (truncf .bf16 x4 bitsLt_bf16_f32) transposes_S128x384_p1_0_S384x128 : FVec Ideal S384x128 .bf16) (ix2 k q) = x4 (ix2 q k) :=
  (transpose_ix2_apply (a := 128) (b := 384) (truncf .bf16 x4 bitsLt_bf16_f32 : FVec Ideal S128x384 .bf16) transposes_S128x384_p1_0_S384x128 k q).trans (truncf_apply x4 _ _)

/-- The body's payload read at row p, column q of the block. -/
private theorem pay1_apply (x0 : Vec Ideal S2000x384 .f32) (x4 : Vec Ideal S128x384 .f32) (x5 : Vec Ideal S1x128 .f32) (x1 : Vec Ideal S2000x128 .f32)
    (x2 : Vec Ideal S2000x1 .f32) (x3 : Vec Ideal S2000x1 .f32) (p : Fin 2000) (q : Fin 128) :
    k2_pay1 x0 x4 x5 x1 x2 x3 (ix2 p q)
      = x1 (ix2 p q) * x2 (ix2 p (0 : Fin 1)) + x3 (ix2 p (0 : Fin 1)) * ((∑ k : Fin 384, x0 (ix2 p k) * x4 (ix2 q k)) + x5 (ix2 (0 : Fin 1) q)) := by
  unfold k2_pay1
  simp only [shapeCast_self]
  rw [addf_apply, mulf_apply, mulf_apply, addf_apply]
  rw [Cert.LibKeepdims.broadcastTo_a1_ab_apply, Cert.LibKeepdims.broadcastTo_a1_ab_apply, broadcastTo_1b_ab_apply, mm_apply]
  simp only [truncf_apply]
  refine congrArg (fun s => x1 (ix2 p q) * x2 (ix2 p (0 : Fin 1)) + x3 (ix2 p (0 : Fin 1)) * (s + x5 (ix2 (0 : Fin 1) q))) (Finset.sum_congr rfl fun k _ => ?_)
  exact congrArg (x0 (ix2 p k) * ·) (wT_apply x4 k q)

/-- The same with each factor named: whatever the six blocks are known to hold along row p and column q. -/
private theorem pay1_apply_of (x0 : Vec Ideal S2000x384 .f32) (x4 : Vec Ideal S128x384 .f32) (x5 : Vec Ideal S1x128 .f32) (x1 : Vec Ideal S2000x128 .f32)
    (x2 : Vec Ideal S2000x1 .f32) (x3 : Vec Ideal S2000x1 .f32) (p : Fin 2000) (q : Fin 128)
    (X W : Fin 384 → Elt Ideal .f32) (b g n n2 : Elt Ideal .f32)
    (h0 : ∀ k : Fin 384, x0 (ix2 p k) = X k) (h4 : ∀ k : Fin 384, x4 (ix2 q k) = W k) (h5 : x5 (ix2 (0 : Fin 1) q) = b)
    (h1 : x1 (ix2 p q) = g) (h2 : x2 (ix2 p (0 : Fin 1)) = n) (h3 : x3 (ix2 p (0 : Fin 1)) = n2) :
    k2_pay1 x0 x4 x5 x1 x2 x3 (ix2 p q) = g * n + n2 * ((∑ k : Fin 384, X k * W k) + b) := by
  rw [pay1_apply, h1, h2, h3, h5]
  simp only [h0, h4]

/-! ## The reference's last stage read at an index -/

section Reference
open Cert.ReferenceIdeal.Read

/-- The reference's last stage read at row r, column q, its inner stages (the aggregated messages, the concatenated features, the two degree columns) kept as they are. -/
private theorem ref_apply (a0 : (⟨S100000x128, .f32⟩ : BufTy).Contents (Elt Ideal)) (a1 : (⟨S1600000, .i32⟩ : BufTy).Contents (Elt Ideal)) (a2 : (⟨S1600000, .i32⟩ : BufTy).Contents (Elt Ideal)) (a3 : (⟨S128x128, .f32⟩ : BufTy).Contents (Elt Ideal)) (a4 : (⟨S128, .f32⟩ : BufTy).Contents (Elt Ideal)) (a5 : (⟨S128x256, .f32⟩ : BufTy).Contents (Elt Ideal)) (a6 : (⟨S128, .f32⟩ : BufTy).Contents (Elt Ideal)) (a7 : (⟨S128x384, .f32⟩ : BufTy).Contents (Elt Ideal)) (a8 : (⟨S128, .f32⟩ : BufTy).Contents (Elt Ideal)) (r : Fin 100000) (q : Fin 128) :
    val_main_v60 (F := Ideal) a0 a1 a2 a3 a4 a5 a6 a7 a8 (ix2 r q)
      = val_main_v49 (F := Ideal) a0 a1 a2 a3 a4 a5 a6 (ix2 r q) * val_main_v7 (F := Ideal) a2 (ix2 r (0 : Fin 1))
        + val_main_v9 (F := Ideal) a2 (ix2 r (0 : Fin 1)) * ((∑ k : Fin 384, val_main_v50 (F := Ideal) a0 a1 a2 a3 a4 a5 a6 (ix2 r k) * a7 (ix2 q k)) + a8 (ix1 q)) := by
  have i51 : idx_main_v51 (ix2 r q) = ix2 r (0 : Fin 1) := funext fun a => Fin.ext (by match a with | ⟨0, _⟩ => rfl | ⟨1, _⟩ => rfl)
  have i58 : idx_main_v58 (ix2 r q) = ix2 r (0 : Fin 1) := funext fun a => Fin.ext (by match a with | ⟨0, _⟩ => rfl | ⟨1, _⟩ => rfl)
  have i56 : idx_main_v56 (ix2 r q) = ix2 (0 : Fin 1) q := funext fun a => Fin.ext (by match a with | ⟨0, _⟩ => rfl | ⟨1, _⟩ => rfl)
  have i55 : idx_main_v55 (ix2 (0 : Fin 1) q) = ix1 q := funext fun a => Fin.ext (by match a with | ⟨0, _⟩ => rfl)
  have il : ∀ k : Fin 384, lidx_main_v54 (ix2 r q) k = ix2 r k := fun k => funext fun a => Fin.ext (by match a with | ⟨0, _⟩ => rfl | ⟨1, _⟩ => rfl)
  have ir : ∀ k : Fin 384, ridx_main_v54 (ix2 r q) k = ix2 k q := fun k => funext fun a => Fin.ext (by match a with | ⟨0, _⟩ => rfl | ⟨1, _⟩ => rfl)
  have i53 : ∀ k : Fin 384, idx_main_v53 (ix2 k q) = ix2 q k := fun k => funext fun a => Fin.ext (by match a with | ⟨0, _⟩ => rfl | ⟨1, _⟩ => rfl)
  rw [val_main_v60_apply, val_main_v52_apply, val_main_v59_apply, val_main_v57_apply, val_main_v51_apply, val_main_v58_apply, val_main_v54_apply, val_main_v56_apply, val_main_v55_apply]
  simp only [val_main_v53_apply, i51, i58, i56, i55, il, ir, i53, Ideal.addf_def, Ideal.mulf_def]

end Reference

/-! ## From the blocks written back to the array -/

/-- The zero offsets of a whole-block rectangle, as the constant function. -/
private theorem hz : (![0, 0] : Fin 2 → Nat) = fun _ => 0 := funext fun a => by fin_cases a <;> rfl

/-- What point t writes back of the h array is block t of ANY whole-array function G that reads, at row r and column q,
    `agg · norm + norm2 · (cat · Wᵀ + b)` of the arrays the region finds in its six input windows. -/
private theorem flushed_eq (c : Dev nD) (t : Fin cfg2.N)
    (Xcat : S100000x384.Idx → Elt Ideal .f32) (Gagg : S100000x128.Idx → Elt Ideal .f32) (N N2 : S100000x1.Idx → Elt Ideal .f32)
    (W : S128x384.Idx → Elt Ideal .f32) (b : Fin 128 → Elt Ideal .f32)
    (hX : V c main_v35 = Xcat) (hG : V c main_v34 = Gagg) (hn : V c main_v7 = N) (hn2 : V c main_v9 = N2)
    (hW : V c main_arg7 = W) (hb : ∀ j : Fin 128, V c main_v36 (ix2 (0 : Fin 1) j) = b j)
    (G : S100000x128.Idx → Elt Ideal .f32)
    (hGv : ∀ (r : Fin 100000) (q : Fin 128), G (ix2 r q)
      = Gagg (ix2 r q) * N (ix2 r (0 : Fin 1)) + N2 (ix2 r (0 : Fin 1)) * ((∑ k : Fin 384, Xcat (ix2 r k) * W (ix2 q k)) + b q)) :
    (dat V c).flushed 6 t = ((cfg2.win 6).blk t).view.read (Elt Ideal) G := by
  show (cfg2.win 6).cut (grid2.coords t) ((dat V c).after 6 t) = _
  rw [after_6]
  unfold hOut
  rw [View.canon_unit_zero hz]
  simp only [View.ld_unit_zero (S := S2000x384) hz, View.ld_unit_zero (S := S2000x128) hz, View.ld_unit_zero (S := S2000x1) hz, View.ld_unit_zero (S := S128x384) hz, View.ld_unit_zero (S := S1x128) hz]
  funext j
  obtain ⟨p, q, rfl⟩ : ∃ (p : Fin 2000) (q : Fin 128), j = ix2 p q := ⟨j 0, j 1, eq_ix2 j⟩
  have ht : t.val < 50 := lt_of_lt_of_eq t.isLt N_2
  have hp : p.val < 2000 := p.isLt
  have hr : t.val * 2000 + p.val < 100000 := by omega
  obtain ⟨-, -, -, -, -, -, -, -, -, -, -, -, e0, e1⟩ := idx_facts t
  have hi : ((cfg2.win 6).blk t).view.emb (ix2 p q) = ix2 (⟨t.val * 2000 + p.val, hr⟩ : Fin 100000) q := funext fun a => Fin.ext (by
    match a with
    | ⟨0, _⟩ => show win2_6.index t (0 : Fin 2) * 2000 + 1 * p.val = t.val * 2000 + p.val; rw [e0]; omega
    | ⟨1, _⟩ => show win2_6.index t (1 : Fin 2) * 128 + 1 * q.val = q.val; rw [e1]; omega)
  show k2_pay1 (blk V c 0 t) (blk V c 4 t) (blk V c 5 t) (blk V c 1 t) (blk V c 2 t) (blk V c 3 t) (ix2 p q)
    = G (((cfg2.win 6).blk t).view.emb (ix2 p q))
  rw [hi, hGv]
  exact pay1_apply_of _ _ _ _ _ _ p q _ _ _ _ _ _
    (fun k => (blk0_apply V c t p k ⟨_, hr⟩ rfl).trans (congrFun hX _))
    (fun k => (blk4_apply V c t q k).trans (congrFun hW _))
    ((blk5_apply V c t 0 q).trans (hb q))
    ((blk1_apply V c t p q ⟨_, hr⟩ rfl).trans (congrFun hG _))
    ((blk2_apply V c t p 0 ⟨_, hr⟩ rfl).trans (congrFun hn _))
    ((blk3_apply V c t p 0 ⟨_, hr⟩ rfl).trans (congrFun hn2 _))

/-- An index of the h array is in point t's block iff each coordinate is in the block's range on its axis. -/
private theorem mem_blk (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v37_0).slice (win2_6.rect t)).set ↔ _
  rw [View.set_slice_whole, Rect.mem_set_unit]
  exact Iff.rfl

/-- Row r of the h array lies in the block of point r / 2000, and every point writes its block back. -/
private theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have ht : (i 0).val / 2000 < cfg2.N := by rw [show cfg2.N = 50 from N_2]; omega
  obtain ⟨-, -, -, -, -, -, -, -, -, -, -, -, e0, e1⟩ := idx_facts ⟨(i 0).val / 2000, ht⟩
  have e0' : win2_6.index ⟨(i 0).val / 2000, ht⟩ (0 : Fin 2) = (i 0).val / 2000 := e0
  refine ⟨⟨(i 0).val / 2000, ht⟩, flush2_6 _, ?_⟩
  rw [mem_blk]
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [e0']; omega
  | ⟨1, _⟩ =>
    show win2_6.index ⟨(i 0).val / 2000, ht⟩ (1 : Fin 2) * 128 ≤ (i 1).val ∧ (i 1).val < win2_6.index ⟨(i 0).val / 2000, ht⟩ (1 : Fin 2) * 128 + 128
    rw [e1]; omega

/-- The `h` array after the region is the reference's result of the same arrays. -/
theorem h_array (c : Dev nD) (a0 : (⟨S100000x128, .f32⟩ : BufTy).Contents (Elt Ideal)) (a1 : (⟨S1600000, .i32⟩ : BufTy).Contents (Elt Ideal)) (a2 : (⟨S1600000, .i32⟩ : BufTy).Contents (Elt Ideal)) (a3 : (⟨S128x128, .f32⟩ : BufTy).Contents (Elt Ideal)) (a4 : (⟨S128, .f32⟩ : BufTy).Contents (Elt Ideal)) (a5 : (⟨S128x256, .f32⟩ : BufTy).Contents (Elt Ideal)) (a6 : (⟨S128, .f32⟩ : BufTy).Contents (Elt Ideal)) (a7 : (⟨S128x384, .f32⟩ : BufTy).Contents (Elt Ideal)) (a8 : (⟨S128, .f32⟩ : BufTy).Contents (Elt Ideal))
    (hX : V c main_v35 = Cert.ReferenceIdeal.Read.val_main_v50 (F := Ideal) a0 a1 a2 a3 a4 a5 a6) (hG : V c main_v34 = Cert.ReferenceIdeal.Read.val_main_v49 (F := Ideal) a0 a1 a2 a3 a4 a5 a6)
    (hn : V c main_v7 = Cert.ReferenceIdeal.Read.val_main_v7 (F := Ideal) a2) (hn2 : V c main_v9 = Cert.ReferenceIdeal.Read.val_main_v9 (F := Ideal) a2)
    (hW : V c main_arg7 = a7) (hb : ∀ j : Fin 128, V c main_v36 (ix2 (0 : Fin 1) j) = a8 (ix1 j)) :
    (dat V c).arrAt 6 cfg2.N = Cert.ReferenceIdeal.Read.val_main_v60 (F := Ideal) a0 a1 a2 a3 a4 a5 a6 a7 a8 := by
  have href := fun (r : Fin 100000) (q : Fin 128) => ref_apply a0 a1 a2 a3 a4 a5 a6 a7 a8 r q
  generalize Cert.ReferenceIdeal.Read.val_main_v60 (F := Ideal) a0 a1 a2 a3 a4 a5 a6 a7 a8 = G at href ⊢
  generalize Cert.ReferenceIdeal.Read.val_main_v50 (F := Ideal) a0 a1 a2 a3 a4 a5 a6 = Xcat at hX href
  generalize Cert.ReferenceIdeal.Read.val_main_v49 (F := Ideal) a0 a1 a2 a3 a4 a5 a6 = Gagg at hG href
  generalize Cert.ReferenceIdeal.Read.val_main_v7 (F := Ideal) a2 = N at hn href
  generalize Cert.ReferenceIdeal.Read.val_main_v9 (F := Ideal) a2 = N2 at hn2 href
  exact (dat V c).arrAt_eq_of_cover 6 G
    (fun t _ => flushed_eq V c t Xcat Gagg N N2 a7 (fun j => a8 (ix1 j)) hX hG hn hn2 hW hb G href) cover

end Cert.KernelIdeal.Combine2

end
-- ==== Proof.KiGlue.lean ====
/-
  The idealized kernel's result as the reference's own term of the argument arrays, at the exact-real instance.
  Walking @main: the two degree columns and the bias rows are the same host operations of the same arguments as
  the reference's; the dense layer's two arrays are the reference's `x · W0ᵀ + b0` and its product with the degree
  column; the gather by source and scatter-add by destination of the messages, and the concatenation of the
  features with the layers so far, are again the reference's operations, applied to arrays already identified —
  so they are carried as the reference's stage functions, never opened —; and each combine layer's arrays are the
  reference's combine stage of those. The last one is the result.
-/
import proofs.«123069_j50448685859076_1_alg».proof.Proof.KiEnds
import proofs.«123069_j50448685859076_1_alg».proof.Proof.KiValue0
import proofs.«123069_j50448685859076_1_alg».proof.Proof.KiValue1
import proofs.«123069_j50448685859076_1_alg».proof.Proof.KiValue2
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-! ## The argument arrays, by name -/

abbrev a0 (c : Dev nD) : (⟨S100000x128, .f32⟩ : BufTy).Contents (Elt Ideal) := m ((c.tc : Thread nD τ).loc main_arg0)
abbrev a1 (c : Dev nD) : (⟨S1600000, .i32⟩ : BufTy).Contents (Elt Ideal) := m ((c.tc : Thread nD τ).loc main_arg1)
abbrev a2 (c : Dev nD) : (⟨S1600000, .i32⟩ : BufTy).Contents (Elt Ideal) := m ((c.tc : Thread nD τ).loc main_arg2)
abbrev a3 (c : Dev nD) : (⟨S128x128, .f32⟩ : BufTy).Contents (Elt Ideal) := m ((c.tc : Thread nD τ).loc main_arg3)
abbrev a4 (c : Dev nD) : (⟨S128, .f32⟩ : BufTy).Contents (Elt Ideal) := m ((c.tc : Thread nD τ).loc main_arg4)
abbrev a5 (c : Dev nD) : (⟨S128x256, .f32⟩ : BufTy).Contents (Elt Ideal) := m ((c.tc : Thread nD τ).loc main_arg5)
abbrev a6 (c : Dev nD) : (⟨S128, .f32⟩ : BufTy).Contents (Elt Ideal) := m ((c.tc : Thread nD τ).loc main_arg6)
abbrev a7 (c : Dev nD) : (⟨S128x384, .f32⟩ : BufTy).Contents (Elt Ideal) := m ((c.tc : Thread nD τ).loc main_arg7)
abbrev a8 (c : Dev nD) : (⟨S128, .f32⟩ : BufTy).Contents (Elt Ideal) := m ((c.tc : Thread nD τ).loc main_arg8)

/-! ## An argument array is as launched at every boundary where it is read -/

theorem B2_arg4 (c : Dev nD) : B2 m c (Proc.devRef .tc main_arg4) = a4 m c :=
  (StableHlo.after_of_writes_sub hostOps0_1 _ hostOps0_1_writes (by decide)).trans <| (StableHlo.after_of_writes_sub hostOps0 _ hostOps0_writes (by decide)).trans <| rfl
theorem B3_arg0 (c : Dev nD) : B3 m c (Proc.devRef .tc main_arg0) = a0 m c :=
  (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B3_arg3 (c : Dev nD) : B3 m c (Proc.devRef .tc main_arg3) = a3 m c :=
  (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B4_arg0 (c : Dev nD) : B4 m c (Proc.devRef .tc main_arg0) = a0 m c :=
  (B4_in m c 0 rfl).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B4_arg1 (c : Dev nD) : B4 m c (Proc.devRef .tc main_arg1) = a1 m c :=
  (B4_of_ne m c main_arg1 (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B4_arg2 (c : Dev nD) : B4 m c (Proc.devRef .tc main_arg2) = a2 m c :=
  (B4_of_ne m c main_arg2 (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B4_arg6 (c : Dev nD) : B4 m c (Proc.devRef .tc main_arg6) = a6 m c :=
  (B4_of_ne m c main_arg6 (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B5_arg5 (c : Dev nD) : B5 m c (Proc.devRef .tc main_arg5) = a5 m c :=
  (StableHlo.after_of_writes_sub hostOps1 _ hostOps1_writes (by decide)).trans <| (B4_of_ne m c main_arg5 (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B6_arg0 (c : Dev nD) : B6 m c (Proc.devRef .tc main_arg0) = a0 m c :=
  (B6_of_ne m c main_arg0 (by decide)).trans <| (StableHlo.after_of_writes_sub hostOps1 _ hostOps1_writes (by decide)).trans <| (B4_in m c 0 rfl).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B6_arg1 (c : Dev nD) : B6 m c (Proc.devRef .tc main_arg1) = a1 m c :=
  (B6_of_ne m c main_arg1 (by decide)).trans <| (StableHlo.after_of_writes_sub hostOps1 _ hostOps1_writes (by decide)).trans <| (B4_of_ne m c main_arg1 (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B6_arg2 (c : Dev nD) : B6 m c (Proc.devRef .tc main_arg2) = a2 m c :=
  (B6_of_ne m c main_arg2 (by decide)).trans <| (StableHlo.after_of_writes_sub hostOps1 _ hostOps1_writes (by decide)).trans <| (B4_of_ne m c main_arg2 (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B6_arg8 (c : Dev nD) : B6 m c (Proc.devRef .tc main_arg8) = a8 m c :=
  (B6_of_ne m c main_arg8 (by decide)).trans <| (StableHlo.after_of_writes_sub hostOps1 _ hostOps1_writes (by decide)).trans <| (B4_of_ne m c main_arg8 (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem B7_arg7 (c : Dev nD) : B7 m c (Proc.devRef .tc main_arg7) = a7 m c :=
  (StableHlo.after_of_writes_sub hostOps2 _ hostOps2_writes (by decide)).trans <| (B6_of_ne m c main_arg7 (by decide)).trans <| (StableHlo.after_of_writes_sub hostOps1 _ hostOps1_writes (by decide)).trans <| (B4_of_ne m c main_arg7 (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl

/-! ## A vector of length 128 reshaped to one row reads its entry `j` at `(0, j)` -/

theorem row_of_vec {α : Type} (x : (⟨1, ![128]⟩ : Shape).Idx → α) (h : (⟨1, ![128]⟩ : Shape).ShapeCasts ⟨2, ![1, 128]⟩) (j : Fin 128) :
    shapeCast ⟨2, ![1, 128]⟩ x h (ix2 (0 : Fin 1) j) = x (ix1 j) :=
  shapeCast_apply x h _ _ (by
    rw [Shape.rowMajor_val_two, Shape.rowMajor_val_one]
    show j.val = 0 * 128 + j.val
    omega)

/-! ## The dense layer's entry -/

/-! ## The degree columns: one host stretch at a time, each over any contents `W` before it -/

/-- The in-degrees: ones scattered and summed by destination. -/
theorem B1_v3 (c : Dev nD) : B1 m c (Proc.devRef .tc main_v3) = Cert.ReferenceIdeal.Read.val_main_v3 (F := Ideal) (a2 m c) := by
  show StableHlo.after hostOps0 (B0 m c) (Proc.devRef .tc main_v3) = _
  simp only [hostOps0]
  after_results
  rfl
/-- The clip's lower bound, the constant one. -/
theorem B1_one (c : Dev nD) : B1 m c (Proc.devRef .tc main_cst_1) = constant (F := Ideal) S_ .f32 0x3F800000#32 := by
  show StableHlo.after hostOps0 (B0 m c) (Proc.devRef .tc main_cst_1) = _
  simp only [hostOps0]
  after_results
/-- The clip stretch: the maximum of its two operands, the bound broadcast. -/
theorem clip_of (W : Valuation τ sig (Elt Ideal)) :
    (StableHlo.after hostOps0_1 W (Proc.devRef .tc main_v4) : (⟨S100000, .f32⟩ : BufTy).Contents (Elt Ideal))
      = maximumf (F := Ideal) (φ := .f32) (broadcastInDim S100000 ![] bcast_S_S100000 (W (Proc.devRef .tc main_cst_1) : FVec Ideal S_ .f32))
          (W (Proc.devRef .tc main_v3) : FVec Ideal S100000 .f32) := by
  simp only [hostOps0_1]
  after_results
  rfl
theorem B2_v4 (c : Dev nD) : B2 m c (Proc.devRef .tc main_v4) = Cert.ReferenceIdeal.Read.val_main_v4 (F := Ideal) (a2 m c) := by
  refine (clip_of (B1 m c)).trans ?_
  rw [B1_one m c, B1_v3 m c]
  rfl
/-- The last stretch before the dense layer: the two columns from the clipped degrees, the bias row from the bias. -/
theorem norm_of (W : Valuation τ sig (Elt Ideal)) :
    StableHlo.after hostOps0_2 W (Proc.devRef .tc main_v7)
      = Host.powf (broadcastInDim S100000x1 ![0] bcast_S100000_S100000x1_0 (W (Proc.devRef .tc main_v4)))
          (broadcastInDim S100000x1 ![] bcast_S_S100000x1 (constant (F := Ideal) S_ .f32 0xBF000000#32)) := by
  simp only [hostOps0_2]
  after_results
theorem norm2_of (W : Valuation τ sig (Elt Ideal)) :
    StableHlo.after hostOps0_2 W (Proc.devRef .tc main_v9)
      = Host.divf (broadcastInDim S100000x1 ![] bcast_S_S100000x1 (constant (F := Ideal) S_ .f32 0x3F800000#32))
          (broadcastInDim S100000x1 ![0] bcast_S100000_S100000x1_0 (W (Proc.devRef .tc main_v4))) := by
  simp only [hostOps0_2]
  after_results
theorem biasrow_of (W : Valuation τ sig (Elt Ideal)) :
    (StableHlo.after hostOps0_2 W (Proc.devRef .tc main_v10) : (⟨S1x128, .f32⟩ : BufTy).Contents (Elt Ideal))
      = shapeCast S1x128 (W (Proc.devRef .tc main_arg4) : (⟨S128, .f32⟩ : BufTy).Contents (Elt Ideal)) shapeCasts_S128_S1x128 := by
  simp only [hostOps0_2]
  after_results
  rfl
theorem B3_norm (c : Dev nD) : B3 m c (Proc.devRef .tc main_v7) = Cert.ReferenceIdeal.Read.val_main_v7 (F := Ideal) (a2 m c) := by
  refine (norm_of (B2 m c)).trans ?_
  rw [B2_v4 m c]
  rfl
theorem B3_norm2 (c : Dev nD) : B3 m c (Proc.devRef .tc main_v9) = Cert.ReferenceIdeal.Read.val_main_v9 (F := Ideal) (a2 m c) := by
  refine (norm2_of (B2 m c)).trans ?_
  rw [B2_v4 m c]
  rfl

theorem entry0_feat (c : Dev nD) : V3 m c main_arg0 = a0 m c := B3_arg0 m c
theorem entry0_w (c : Dev nD) : V3 m c main_arg3 = a3 m c := B3_arg3 m c
/-- The bias row is the bias vector reshaped. -/
theorem entry0_bias (c : Dev nD) (j : Fin 128) : V3 m c main_v10 (ix2 (0 : Fin 1) j) = a4 m c (ix1 j) := by
  have e : (V3 m c main_v10 : (⟨S1x128, .f32⟩ : BufTy).Contents (Elt Ideal)) = shapeCast S1x128 (a4 m c) shapeCasts_S128_S1x128 := by
    refine (biasrow_of (B2 m c)).trans ?_
    rw [B2_arg4 m c]
  rw [e]
  exact row_of_vec _ _ j

/-! ## The dense layer's two arrays -/

theorem h0_value (c : Dev nD) : B4 m c (Proc.devRef .tc main_v11_0) = Cert.ReferenceIdeal.Read.val_main_v14 (F := Ideal) (a0 m c) (a3 m c) (a4 m c) :=
  (B4_arr m c 4).trans (Dense0.h_array (V3 m) c (a0 m c) (a3 m c) (a4 m c) (entry0_feat m c) (entry0_w m c) (entry0_bias m c))
theorem m0_value (c : Dev nD) : B4 m c (Proc.devRef .tc main_v11_1) = Cert.ReferenceIdeal.Read.val_main_v16 (F := Ideal) (a0 m c) (a2 m c) (a3 m c) (a4 m c) :=
  (B4_arr m c 5).trans (Dense0.m_array (V3 m) c (a0 m c) (a2 m c) (a3 m c) (a4 m c) (entry0_feat m c) (entry0_w m c) (entry0_bias m c) (B3_norm m c))

/-! ## The first combine layer's entry -/

/-- The two degree columns are untouched by the dense layer and by the stretch after it. -/
theorem B5_norm (c : Dev nD) : B5 m c (Proc.devRef .tc main_v7) = Cert.ReferenceIdeal.Read.val_main_v7 (F := Ideal) (a2 m c) :=
  (StableHlo.after_of_writes_sub hostOps1 _ hostOps1_writes (by decide)).trans <| (B4_in m c 3 rfl).trans <| B3_norm m c
theorem B5_norm2 (c : Dev nD) : B5 m c (Proc.devRef .tc main_v9) = Cert.ReferenceIdeal.Read.val_main_v9 (F := Ideal) (a2 m c) :=
  (StableHlo.after_of_writes_sub hostOps1 _ hostOps1_writes (by decide)).trans <| (B4_of_ne m c main_v9 (by decide)).trans <| B3_norm2 m c
/-- The concatenated features `[feat, h0]`. -/
theorem entry1_cat (c : Dev nD) : V5 m c main_v22 = Cert.ReferenceIdeal.Read.val_main_v27 (F := Ideal) (a0 m c) (a3 m c) (a4 m c) := by
  show StableHlo.after hostOps1 (B4 m c) (Proc.devRef .tc main_v22) = _
  simp only [hostOps1]
  after_results
  rw [B4_arg0 m c, h0_value m c]
  rfl
/-- The messages `m0` gathered by source and summed by destination. -/
theorem entry1_agg (c : Dev nD) : V5 m c main_v21 = Cert.ReferenceIdeal.Read.val_main_v26 (F := Ideal) (a0 m c) (a1 m c) (a2 m c) (a3 m c) (a4 m c) := by
  show StableHlo.after hostOps1 (B4 m c) (Proc.devRef .tc main_v21) = _
  simp only [hostOps1]
  after_results
  rw [B4_arg1 m c, B4_arg2 m c, m0_value m c]
  rfl
theorem entry1_bias (c : Dev nD) (j : Fin 128) : V5 m c main_v23 (ix2 (0 : Fin 1) j) = a6 m c (ix1 j) := by
  have e : V5 m c main_v23 = shapeCast S1x128 (a6 m c) shapeCasts_S128_S1x128 := by
    show StableHlo.after hostOps1 (B4 m c) (Proc.devRef .tc main_v23) = _
    simp only [hostOps1]
    after_results
    rw [B4_arg6 m c]
    rfl
  rw [e]
  exact row_of_vec _ _ j

/-! ## The first combine layer's two arrays -/

theorem h1_value (c : Dev nD) : B6 m c (Proc.devRef .tc main_v24_0) = Cert.ReferenceIdeal.Read.val_main_v37 (F := Ideal) (a0 m c) (a1 m c) (a2 m c) (a3 m c) (a4 m c) (a5 m c) (a6 m c) :=
  (B6_arr m c 6).trans (Combine1.h_array (V5 m) c _ _ _ _ _ _ _ (entry1_cat m c) (entry1_agg m c) (B5_norm m c) (B5_norm2 m c) (B5_arg5 m c) (entry1_bias m c))
theorem m1_value (c : Dev nD) : B6 m c (Proc.devRef .tc main_v24_1) = Cert.ReferenceIdeal.Read.val_main_v39 (F := Ideal) (a0 m c) (a1 m c) (a2 m c) (a3 m c) (a4 m c) (a5 m c) (a6 m c) :=
  (B6_arr m c 7).trans (Combine1.m_array (V5 m) c _ _ _ _ _ _ _ (entry1_cat m c) (entry1_agg m c) (B5_norm m c) (B5_norm2 m c) (B5_arg5 m c) (entry1_bias m c))

/-! ## The second combine layer's entry -/

theorem B7_norm (c : Dev nD) : B7 m c (Proc.devRef .tc main_v7) = Cert.ReferenceIdeal.Read.val_main_v7 (F := Ideal) (a2 m c) :=
  (StableHlo.after_of_writes_sub hostOps2 _ hostOps2_writes (by decide)).trans <| (B6_in m c 2 rfl).trans <| B5_norm m c
theorem B7_norm2 (c : Dev nD) : B7 m c (Proc.devRef .tc main_v9) = Cert.ReferenceIdeal.Read.val_main_v9 (F := Ideal) (a2 m c) :=
  (StableHlo.after_of_writes_sub hostOps2 _ hostOps2_writes (by decide)).trans <| (B6_in m c 3 rfl).trans <| B5_norm2 m c
/-- The dense layer's `h0` is untouched by the first combine layer and the stretch before it. -/
theorem B6_h0 (c : Dev nD) : B6 m c (Proc.devRef .tc main_v11_0) = Cert.ReferenceIdeal.Read.val_main_v14 (F := Ideal) (a0 m c) (a3 m c) (a4 m c) :=
  (B6_of_ne m c main_v11_0 (by decide)).trans <| (StableHlo.after_of_writes_sub hostOps1 _ hostOps1_writes (by decide)).trans <| h0_value m c
/-- The last stretch's concatenation, over any contents `W` before it: the features, `h0` and `h1` side by side. -/
theorem cat3_of (W : Valuation τ sig (Elt Ideal)) :
    (StableHlo.after hostOps2 W (Proc.devRef .tc main_v35) : (⟨S100000x384, .f32⟩ : BufTy).Contents (Elt Ideal))
      = concatenate S100000x384 1 [⟨S100000x128, (W (Proc.devRef .tc main_arg0) : FVec Ideal S100000x128 .f32)⟩,
          ⟨S100000x128, (W (Proc.devRef .tc main_v11_0) : FVec Ideal S100000x128 .f32)⟩,
          ⟨S100000x128, (W (Proc.devRef .tc main_v24_0) : FVec Ideal S100000x128 .f32)⟩]
          concatenates_S100000x128_S100000x128_S100000x128_S100000x384_d1 := by
  simp only [hostOps2]
  after_results_simp
  simp (disch := decide) only [Matrix.cons_val_zero, Matrix.cons_val_one, Matrix.head_cons, Matrix.cons_val_two, Matrix.tail_cons,
    nullary_result_ne', unary_result_ne', binary_result_ne', ternary_result_ne', reshape_result_ne', nary_result_ne']
  rfl
/-- The concatenated features `[feat, h0, h1]`. -/
theorem entry2_cat (c : Dev nD) : V7 m c main_v35 = Cert.ReferenceIdeal.Read.val_main_v50 (F := Ideal) (a0 m c) (a1 m c) (a2 m c) (a3 m c) (a4 m c) (a5 m c) (a6 m c) := by
  refine (cat3_of (B6 m c)).trans ?_
  rw [B6_arg0 m c, B6_h0 m c, h1_value m c]
  rfl
/-- The messages `m1` gathered by source and summed by destination. -/
theorem entry2_agg (c : Dev nD) : V7 m c main_v34 = Cert.ReferenceIdeal.Read.val_main_v49 (F := Ideal) (a0 m c) (a1 m c) (a2 m c) (a3 m c) (a4 m c) (a5 m c) (a6 m c) := by
  show StableHlo.after hostOps2 (B6 m c) (Proc.devRef .tc main_v34) = _
  simp only [hostOps2]
  after_results
  rw [B6_arg1 m c, B6_arg2 m c, m1_value m c]
  rfl
theorem entry2_bias (c : Dev nD) (j : Fin 128) : V7 m c main_v36 (ix2 (0 : Fin 1) j) = a8 m c (ix1 j) := by
  have e : V7 m c main_v36 = shapeCast S1x128 (a8 m c) shapeCasts_S128_S1x128 := by
    show StableHlo.after hostOps2 (B6 m c) (Proc.devRef .tc main_v36) = _
    simp only [hostOps2]
    after_results
    rw [B6_arg8 m c]
    rfl
  rw [e]
  exact row_of_vec _ _ j

/-! ## The result -/

/-- The second combine layer's `h` array — the kernel's result — is the reference's term of the argument arrays. -/
theorem result_value (c : Dev nD) : (Combine2.dat (V7 m) c).arrAt 6 cfg2.N
    = Cert.ReferenceIdeal.Read.val_main_v60 (F := Ideal) (a0 m c) (a1 m c) (a2 m c) (a3 m c) (a4 m c) (a5 m c) (a6 m c) (a7 m c) (a8 m c) :=
  Combine2.h_array (V7 m) c _ _ _ _ _ _ _ _ _ (entry2_cat m c) (entry2_agg m c) (B7_norm m c) (B7_norm2 m c) (B7_arg7 m c) (entry2_bias m c)

end Cert.KernelIdeal.Whole

end
-- ==== Proof.lean ====
/-
  The certificate of a three-layer graph network's dense path against its jnp reference, over the extended reals.

  The kernel computes, for N = 100000 nodes and E = 1600000 edges: the in-degrees `degs` (clipped at 1), the columns
  `norm = degs^(-1/2)` and `norm2 = 1/degs`; a dense layer `h0 = feat · W0ᵀ + b0`, `m0 = h0 · norm`; and twice a
  combine layer `h = agg · norm + norm2 · (cat · Wᵀ + b)`, `m = h · norm`, where `agg` is the previous `m` gathered
  by source and summed by destination and `cat` the features concatenated with every earlier `h`. The three dense
  computations are pipelined kernels over 50 row blocks; everything between them is host operations. The reference
  is the same mathematics as one host program.

  FRAMES. Each kernel program runs as a list of segments — host stretches and the three pipelines — and ends with
  every unscoped buffer at the last boundary's contents; no host operation writes an argument and a region at most
  reads one through an input window, so the arguments end as launched. The reference's frame is its run.

  VALUE. At the exact-real instance a change of float format is the identity and a matrix product into a zero
  accumulator is the plain sum over the contracted axis, so each pipeline's output array is, row block by row
  block, the reference's corresponding stage of the same arrays; the gathers, scatter-adds and concatenations are
  the same operations on both sides and are carried unopened. No law beyond that matching is used, and the
  precondition is not needed.
-/
import proofs.«123069_j50448685859076_1_alg».proof.Defs
import proofs.«123069_j50448685859076_1_alg».proof.Proof.Gen.Pre_finite_inputs
import proofs.«123069_j50448685859076_1_alg».proof.Proof.KEnds
import proofs.«123069_j50448685859076_1_alg».proof.Proof.KiEnds
import proofs.«123069_j50448685859076_1_alg».proof.Proof.KiGlue
import proofs.«123069_j50448685859076_1_alg».proof.Proof.Gen.ReferenceIdeal.Read

noncomputable section

namespace Cert.Proof

open Idealize.ShloMosaic Idealize.SL.Sem

/-- The word-level kernel terminates, faults nowhere and leaves its arguments as launched. -/
theorem frame_kernel : Cert.frame_Kernel := fun m ρ _ => Cert.Kernel.Whole.frame m ρ

/-- So does the idealized kernel. -/
theorem frame_kernel_ideal : Cert.frame_KernelIdeal := fun m ρ _ => Cert.KernelIdeal.Whole.frame m ρ

/-- The reference is host operations only: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the reference's last stage of those
    arguments in their result buffers. -/
theorem algebraic : Cert.algebraic_KernelIdeal_ReferenceIdeal := by
  intro m ρ m' ρ' _ hagree
  refine ⟨fun c => Cert.ReferenceIdeal.Read.val_main_v60 (F := Ideal) (Cert.KernelIdeal.Whole.a0 m c) (Cert.KernelIdeal.Whole.a1 m c)
      (Cert.KernelIdeal.Whole.a2 m c) (Cert.KernelIdeal.Whole.a3 m c) (Cert.KernelIdeal.Whole.a4 m c) (Cert.KernelIdeal.Whole.a5 m c)
      (Cert.KernelIdeal.Whole.a6 m c) (Cert.KernelIdeal.Whole.a7 m c) (Cert.KernelIdeal.Whole.a8 m c), ?_, ?_⟩
  · exact (θ_run Cert.KernelIdeal.defs _ _).mono
      (fun r h c => ⟨(h c).1.trans (Cert.KernelIdeal.Whole.result_value m c), (h c).2⟩)
      (Cert.KernelIdeal.Whole.run_result m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8⟩ := hagree c
    rw [(h c).1, Cert.ReferenceIdeal.Read.val_main_v60_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
